-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1x512 : Shape := ⟨2, ![1, 512]⟩
abbrev S512 : Shape := ⟨1, ![512]⟩
abbrev S512x130 : Shape := ⟨2, ![512, 130]⟩
abbrev S512x512 : Shape := ⟨2, ![512, 512]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  concatenates_S512x128_S512x1_S512x1_S512x130_d1 : Shape.Concatenates [S512x128, S512x1, S512x1] S512x130 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  reducesTo_S8192x1_S_d0_1 : S8192x1.ReducesTo [0, 1] S_
  h_S_ : 0 < S_.numel
  dot_S512x130_S512x130_S512x512_1_1_0_0_n_n_wf : DotDims.WF S512x130 S512x130 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x130_S512x130_S512x512_1_1_0_0_n_n : DotDims S512x130 S512x130 S512x512 where
  lhsContracting := [1]
  rhsContracting := [1]
  lhsNonContracting := [0]
  rhsNonContracting := [0]
  lhsBatch := []
  rhsBatch := []
  wf := dot_S512x130_S512x130_S512x512_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call2_v0 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_call3_v0 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The hard-mining triplet loss as ONE function of the feature array and the label vector, on the extended reals.

  For an anchor row `i` and a row `j`: the squared distance by the Gram identity, `|x_i|² + |x_j|² − 2⟨x_i, x_j⟩`, cut
  off below at `0`; the distance its square root; the hardest positive the largest distance to a row with the anchor's
  label (`⊥` where there is none), the hardest negative the smallest distance to a row with another label (`⊤` where
  there is none); the anchor's slack `max (hardest positive − hardest negative + 1) 0`; the loss the sum of the slacks
  divided by the number of rows. The float words `0`, `1`, `2`, `−2` of the two programs denote those reals
  (`ofBits_*`); the divisor's word `8192.0` is the same in both programs and stays a word.
-/
import Idealize.ShloMosaic.PureOps.Ideal
import Idealize.ShloMosaic.PureOps.Ideal.Laws
import Idealize.ShloMosaic.Lib.ValueIdx

noncomputable section

open scoped BigOperators

namespace Cert.Triplet

open Idealize.ShloMosaic

/-- The features by row and column, and the labels by row. -/
abbrev Feat := Fin 8192 → Fin 128 → EReal
abbrev Lab := Fin 8192 → BitVec 32

/-- A row's squared norm. -/
def sqn (x : Feat) (i : Fin 8192) : EReal := ∑ k : Fin 128, x i k * x i k
/-- Two rows' inner product. -/
def gram (x : Feat) (i j : Fin 8192) : EReal := ∑ k : Fin 128, x i k * x j k
/-- The squared distance by the Gram identity, cut off below at zero. -/
def d2 (x : Feat) (i j : Fin 8192) : EReal := max (sqn x i + sqn x j - 2 * gram x i j) 0
/-- The distance. -/
def dist (x : Feat) (i j : Fin 8192) : EReal := Ideal.sqrt (d2 x i j)
/-- The candidates of the two minings: a same-label pair is a positive, any other a negative. -/
def posCand (x : Feat) (t : Lab) (i j : Fin 8192) : EReal := if t i = t j then dist x i j else ⊥
def negCand (x : Feat) (t : Lab) (i j : Fin 8192) : EReal := if t i = t j then ⊤ else dist x i j
/-- The hardest positive and the hardest negative of an anchor. -/
def hardPos (x : Feat) (t : Lab) (i : Fin 8192) : EReal := ⨆ j : Fin 8192, posCand x t i j
def hardNeg (x : Feat) (t : Lab) (i : Fin 8192) : EReal := ⨅ j : Fin 8192, negCand x t i j
/-- The anchor's slack at margin one. -/
def slack (x : Feat) (t : Lab) (i : Fin 8192) : EReal := max (hardPos x t i - hardNeg x t i + 1) 0
/-- The loss: the mean slack (the divisor is the programs' word for `8192.0`). -/
def loss (x : Feat) (t : Lab) : EReal := Ideal.div (∑ i : Fin 8192, slack x t i) (Ideal.ofBits .f32 0x46000000#32)

/-! ## The float words the programs spell -/

theorem ofBits_one : Ideal.ofBits .f32 0x3F800000#32 = 1 := by
  simp [Ideal.ofBits, Ideal.ieee, -EReal.coe_mul]; norm_num
theorem ofBits_two : Ideal.ofBits .f32 0x40000000#32 = 2 := by
  simp [Ideal.ofBits, Ideal.ieee, -EReal.coe_mul]; norm_num; norm_cast
theorem ofBits_neg_two : Ideal.ofBits .f32 0xC0000000#32 = -2 := by
  simp [Ideal.ofBits, Ideal.ieee, -EReal.coe_mul]; norm_num; norm_cast
theorem ofBits_neg_inf : Ideal.ofBits .f32 0xFF800000#32 = ⊥ := by
  simp [Ideal.ofBits, Ideal.ieee]
theorem ofBits_pos_inf : Ideal.ofBits .f32 0x7F800000#32 = ⊤ := by
  simp [Ideal.ofBits, Ideal.ieee]

end Cert.Triplet

end
-- ==== Proof.RefValue.lean ====
/-
  The reference program computes the hard-mining triplet loss of the specification, stage by stage.

  Read at a row `i` and a pair of rows `(i, j)`: the row sums of squares are the squared norms; their sum over a pair
  minus twice the contraction of the feature array against its transpose is the Gram form of the squared distance, and
  its maximum with zero the cut-off squared distance; the guarded square root (a select on "positive" around the root,
  whose inner guard replaces a non-positive argument by one) is the square root itself, because the argument is never
  negative and the square root of zero is zero; the comparison of the two labels decides which of the distance and an
  infinity each candidate is; the reduce with a maximum body from −∞ along a row is the supremum of the row's positive
  candidates, the reduce with a minimum body from +∞ the infimum of its negative candidates; the slack is the maximum of
  their difference plus one with zero; and the result is the sum of the slacks over all rows divided by the word the
  program spells for the number of rows.
-/
import proofs.«173925_j63556926046454_1_alg».proof.Proof.Spec
import proofs.«173925_j63556926046454_1_alg».proof.Proof.Gen.ReferenceIdeal.Read
import Idealize.ShloMosaic.Lib.ValueIdx
import Idealize.ShloMosaic.Lib.ValueIdxRank1
import Idealize.ShloMosaic.PureOps.Ideal.Laws
import Idealize.ShloMosaic.PureOps.Reduce
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Read Cert.Triplet

/-- The feature array and the label vector as the reference's argument buffers. -/
abbrev XBuf := (⟨S8192x128, .f32⟩ : BufTy).Contents (Elt Ideal)
abbrev TBuf := (⟨S8192, .i32⟩ : BufTy).Contents (Elt Ideal)

/-- The features by row and column. -/
abbrev feat (X : XBuf) : Feat := fun i k => X (ix2 i k)
/-- The labels by row. -/
abbrev lab (T : TBuf) : Lab := fun i => T (ix1 i)

/-- A row's squared norm: the zero word plus the sum of the squares along the row. -/
theorem v1_at (X : XBuf) (i : Fin 8192) : val_main_v1 (F := Ideal) X (ix1 i) = sqn (feat X) i := by
  rw [val_main_v1_apply, val_main_cst_apply]
  simp only [Ideal.ofBits_def, Ideal.ofBits_zero_f32, zero_add]
  unfold sqn
  refine Finset.sum_congr rfl fun k _ => ?_
  rw [val_main_v0_apply, Ideal.mulf_def]
  have e : idx_main_v1 (ix1 i) k = ix2 i k := funext fun a => Fin.ext (by match a with | ⟨0, _⟩ => rfl | ⟨1, _⟩ => rfl)
  rw [e]

/-- The two squared norms of a pair of rows, added. -/
theorem v6_at (X : XBuf) (i j : Fin 8192) :
    val_main_v6 (F := Ideal) X (ix2 i j) = sqn (feat X) i + sqn (feat X) j := by
  rw [val_main_v6_apply, val_main_v4_apply, val_main_v2_apply, val_main_v5_apply, val_main_v3_apply, Ideal.addf_def]
  have e1 : idx_main_v2 (idx_main_v4 (ix2 i j)) = ix1 i := funext fun a => Fin.ext (by match a with | ⟨0, _⟩ => rfl)
  have e2 : idx_main_v3 (idx_main_v5 (ix2 i j)) = ix1 j := funext fun a => Fin.ext (by match a with | ⟨0, _⟩ => rfl)
  rw [e1, e2, v1_at, v1_at]

/-- The inner product of a pair of rows: the contraction against the transpose. -/
theorem v8_at (X : XBuf) (i j : Fin 8192) : val_main_v8 (F := Ideal) X (ix2 i j) = gram (feat X) i j := by
  rw [val_main_v8_apply]
  unfold gram
  refine Finset.sum_congr rfl fun k _ => ?_
  rw [val_main_v7_apply]
  have e1 : lidx_main_v8 (ix2 i j) k = ix2 i k := funext fun a => Fin.ext (by match a with | ⟨0, _⟩ => rfl | ⟨1, _⟩ => rfl)
  have e2 : idx_main_v7 (ridx_main_v8 (ix2 i j) k) = ix2 j k := funext fun a => Fin.ext (by match a with | ⟨0, _⟩ => rfl | ⟨1, _⟩ => rfl)
  rw [e1, e2]

/-- The squared distance by the Gram identity, cut off below at zero. -/
theorem v13_at (X : XBuf) (i j : Fin 8192) : val_main_v13 (F := Ideal) X (ix2 i j) = d2 (feat X) i j := by
  rw [val_main_v13_apply, val_main_v11_apply, val_main_v10_apply, val_main_v9_apply, val_main_cst_0_apply,
    val_main_v12_apply, val_main_cst_1_apply, v6_at, v8_at]
  simp only [Ideal.maximumf_def, Ideal.subf_def, Ideal.mulf_def, Ideal.ofBits_def, ofBits_two, Ideal.ofBits_zero_f32]
  rfl

/-- A strict comparison with zero, as a one-bit word. -/
theorem cmp_ogt_pos {d : EReal} (h : 0 < d) : Ideal.cmp .ogt d 0 = 1#1 := by
  show BitVec.ofBool (decide (0 < d)) = 1#1
  rw [decide_eq_true h]; rfl
theorem cmp_ogt_zero : Ideal.cmp .ogt (0 : EReal) 0 = 0#1 := by
  show BitVec.ofBool (decide ((0 : EReal) < 0)) = 0#1
  rw [decide_eq_false (lt_irrefl _)]; rfl

/-- The guarded square root of a non-negative extended real is its square root: where the argument is positive both
    guards pass, and at zero the guard answers zero, which is the square root of zero. -/
theorem guarded_sqrt (d : EReal) (hd : 0 ≤ d) :
    Scalar.select (Ideal.cmp .ogt d 0) (Ideal.sqrt (Scalar.select (Ideal.cmp .ogt d 0) d 1)) 0 = Ideal.sqrt d := by
  rcases hd.lt_or_eq with h | h
  · rw [cmp_ogt_pos h, select_one, select_one]
  · subst h
    rw [cmp_ogt_zero, select_zero]
    show (0 : EReal) = Ideal.sqrt ((0 : ℝ) : EReal)
    rw [Ideal.sqrt_coe, if_neg (lt_irrefl _), Real.sqrt_zero]; rfl

/-- The distance of a pair of rows. -/
theorem v20_at (X : XBuf) (i j : Fin 8192) : val_main_v20 (F := Ideal) X (ix2 i j) = dist (feat X) i j := by
  rw [val_main_v20_apply, val_main_v15_apply, val_main_v19_apply, val_main_v18_apply, val_main_v17_apply,
    val_main_v14_apply, val_main_cst_2_apply, val_main_v16_apply, val_main_cst_3_apply,
    val_main_call0_v1_apply, val_main_call0_v0_apply, val_main_cst_4_apply,
    val_main_call1_v1_apply, val_main_call1_v0_apply, val_main_cst_5_apply, v13_at]
  simp only [Ideal.cmpf_def, Ideal.hostUnary_sqrt_def, Ideal.ofBits_def, ofBits_one, Ideal.ofBits_zero_f32]
  exact guarded_sqrt _ (le_max_right _ _)

/-- The label comparison of a pair of rows, as a one-bit word. -/
theorem v25_at (T : TBuf) (i j : Fin 8192) :
    val_main_v25 (F := Ideal) T (ix2 i j) = IntOp.cmpi .eq (lab T i) (lab T j) := by
  rw [val_main_v25_apply, val_main_v23_apply, val_main_v21_apply, val_main_v24_apply, val_main_v22_apply]
  have e1 : idx_main_v21 (idx_main_v23 (ix2 i j)) = ix1 i := funext fun a => Fin.ext (by match a with | ⟨0, _⟩ => rfl)
  have e2 : idx_main_v22 (idx_main_v24 (ix2 i j)) = ix1 j := funext fun a => Fin.ext (by match a with | ⟨0, _⟩ => rfl)
  rw [e1, e2]

/-- A select on the label comparison is the `if` on the labels' equality. -/
theorem select_label {α : Type} (a b : BitVec 32) (u v : α) :
    Scalar.select (IntOp.cmpi .eq a b) u v = if a = b then u else v := by
  by_cases h : a = b
  · rw [if_pos h, StableHlo.Predicate.cmpi_eq_iff.mpr h, select_one]
  · rw [if_neg h, eq_zero_of_ne_one (fun hc => h (StableHlo.Predicate.cmpi_eq_iff.mp hc)), select_zero]

/-- The positive candidate of a pair: the distance where the labels agree, −∞ elsewhere. -/
theorem v26_at (X : XBuf) (T : TBuf) (i j : Fin 8192) :
    val_main_v26 (F := Ideal) X T (ix2 i j) = posCand (feat X) (lab T) i j := by
  rw [val_main_v26_apply, v25_at, v20_at, val_main_call2_v0_apply, val_main_cst_6_apply, select_label]
  simp only [Ideal.ofBits_def, ofBits_neg_inf]
  rfl

/-- The negative candidate of a pair: +∞ where the labels agree, the distance elsewhere. -/
theorem v28_at (X : XBuf) (T : TBuf) (i j : Fin 8192) :
    val_main_v28 (F := Ideal) X T (ix2 i j) = negCand (feat X) (lab T) i j := by
  rw [val_main_v28_apply, v25_at, v20_at, val_main_call3_v0_apply, val_main_cst_8_apply, select_label]
  simp only [Ideal.ofBits_def, ofBits_pos_inf]
  rfl

/-! ## The two minings: a fold of a maximum from −∞ is a supremum, a fold of a minimum from +∞ an infimum -/

theorem fold_max_eq_iSup {ι : Type} [Fintype ι] (f : ι → EReal) :
    (Finset.univ : Finset ι).fold max ⊥ f = ⨆ k, f k := by
  rw [← Finset.sup_univ_eq_iSup]; rfl

theorem fold_min_eq_iInf {ι : Type} [Fintype ι] (f : ι → EReal) :
    (Finset.univ : Finset ι).fold min ⊤ f = ⨅ k, f k := by
  rw [← Finset.inf_univ_eq_iInf]; rfl

/-- Dropping the column axis of the square array of pairs leaves the rows. -/
theorem red : S8192x8192.Reduces [1] S8192 := by decide

/-- Row `i` with column `k` put back is the pair (i, k). -/
theorem lift_row (i : Fin 8192) (k : Fin (S8192x8192.size 1)) :
    red.lift (ix1 i) k = ix2 i (⟨k.val, k.isLt⟩ : Fin 8192) := by
  funext c; apply Fin.ext
  match c with
  | ⟨0, _⟩ => rfl
  | ⟨1, _⟩ => rfl

/-- From −∞ the reduce with a maximum body along the columns is, at row `i`, the supremum of the row. -/
theorem rowMax (y : FVec Ideal S8192x8192 .f32) (init : FVec Ideal S_ .f32)
    (h' : S8192x8192.ReducesTo [1] S8192) (hu : 0 < S_.numel) (hinit : init (Shape.Idx.first hu) = ⊥) (i : Fin 8192) :
    Host.reduce (FloatOps.maximumf (F := Ideal) (φ := .f32)) y init h' hu (ix1 i) = ⨆ j : Fin 8192, y (ix2 i j) := by
  rw [Host.reduce_eq_fold_single FloatOps.maximumf y init h' red hu, hinit]
  have hf : (y ∘ red.lift (ix1 i)) = fun k : Fin 8192 => y (ix2 i k) := funext fun k => congrArg y (lift_row i k)
  exact (congrArg (fun f => Finset.fold max ⊥ f (Finset.univ : Finset (Fin 8192))) hf).trans (fold_max_eq_iSup _)

/-- From +∞ the reduce with a minimum body along the columns is, at row `i`, the infimum of the row. -/
theorem rowMin (y : FVec Ideal S8192x8192 .f32) (init : FVec Ideal S_ .f32)
    (h' : S8192x8192.ReducesTo [1] S8192) (hu : 0 < S_.numel) (hinit : init (Shape.Idx.first hu) = ⊤) (i : Fin 8192) :
    Host.reduce (FloatOps.minimumf (F := Ideal) (φ := .f32)) y init h' hu (ix1 i) = ⨅ j : Fin 8192, y (ix2 i j) := by
  rw [Host.reduce_eq_fold_single FloatOps.minimumf y init h' red hu, hinit]
  have hf : (y ∘ red.lift (ix1 i)) = fun k : Fin 8192 => y (ix2 i k) := funext fun k => congrArg y (lift_row i k)
  exact (congrArg (fun f => Finset.fold min ⊤ f (Finset.univ : Finset (Fin 8192))) hf).trans (fold_min_eq_iInf _)

/-- The hardest positive of an anchor: the supremum of its positive candidates. -/
theorem v27_at (X : XBuf) (T : TBuf) (i : Fin 8192) :
    val_main_v27 (F := Ideal) X T (ix1 i) = hardPos (feat X) (lab T) i := by
  unfold val_main_v27
  refine (rowMax _ _ _ _ ?_ i).trans ?_
  · exact ofBits_neg_inf
  · unfold hardPos
    exact iSup_congr fun j => v26_at X T i j

/-- The hardest negative of an anchor: the infimum of its negative candidates. -/
theorem v29_at (X : XBuf) (T : TBuf) (i : Fin 8192) :
    val_main_v29 (F := Ideal) X T (ix1 i) = hardNeg (feat X) (lab T) i := by
  unfold val_main_v29
  refine (rowMin _ _ _ _ ?_ i).trans ?_
  · exact ofBits_pos_inf
  · unfold hardNeg
    exact iInf_congr fun j => v28_at X T i j

/-- The anchor's slack at margin one. -/
theorem v34_at (X : XBuf) (T : TBuf) (i : Fin 8192) :
    val_main_v34 (F := Ideal) X T (ix1 i) = slack (feat X) (lab T) i := by
  rw [val_main_v34_apply, val_main_v32_apply, val_main_v30_apply, val_main_v31_apply, val_main_cst_10_apply,
    val_main_v33_apply, val_main_cst_11_apply, v27_at, v29_at]
  simp only [Ideal.maximumf_def, Ideal.addf_def, Ideal.subf_def, Ideal.ofBits_def, ofBits_one, Ideal.ofBits_zero_f32]
  rfl

/-- The reference computes the loss: the sum of the slacks over the rows, divided by the word for the number of rows. -/
theorem ref_eq (X : (⟨Cert.ReferenceIdeal.S8192x128, .f32⟩ : BufTy).Contents (Elt Ideal))
    (T : (⟨Cert.ReferenceIdeal.S8192, .i32⟩ : BufTy).Contents (Elt Ideal)) :
    Cert.ReferenceIdeal.Read.val_main_v36 (F := Ideal) X T
      = fun _ => Cert.Triplet.loss (fun i k => X (ValueIdx.ix2 i k)) (fun i => T (ValueIdx.ix1 i)) := by
  funext z
  rw [val_main_v36_apply, val_main_v35_apply, val_main_cst_12_apply, val_main_cst_13_apply]
  simp only [Ideal.hostDivf_def, Ideal.ofBits_def, Ideal.ofBits_zero_f32, zero_add]
  unfold loss
  refine congrArg (fun s => Ideal.div s (Ideal.ofBits .f32 0x46000000#32)) ?_
  rw [← Equiv.sum_comp (idxEquiv1 (n := 8192)).symm]
  exact Finset.sum_congr rfl fun i _ => v34_at X T i

end Cert.ReferenceIdeal.RefValue

end
-- ==== Proof.Finite.lean ====
/-
  From the stated precondition to "every feature is a real number".

  The precondition says that the conjunction, over all rows and columns, of the bits "|x| is below +∞" is one. A
  conjunction equal to one has every conjunct equal to one, so at every row and column |x| is below +∞; on the
  extended reals |x| is max x (−x), which is ⊤ at x = ⊤ and at x = ⊥. Hence every feature is neither ⊤ nor ⊥.
-/
import proofs.«173925_j63556926046454_1_alg».proof.Defs
import proofs.«173925_j63556926046454_1_alg».proof.Proof.Gen.Pre_finite_inputs
import Idealize.ShloMosaic.Lib.ReduceAll
import Idealize.ShloMosaic.Lib.ValueIdx
import Idealize.ShloMosaic.PureOps.Ideal

noncomputable section

namespace Cert.Proof.Finite

open Idealize.ShloMosaic Idealize.SL.Sem

/-- The rank-0 shape has one index. -/
instance subsingleton_S_ : Subsingleton Cert.Pre_finite_inputs.S_.Idx := ⟨fun a b => funext fun d => d.elim0⟩

/-- The word the precondition compares against denotes +∞. -/
theorem word_pos_inf : Ideal.ofBits .f32 0x7F800000#32 = (⊤ : EReal) := by
  simp [Ideal.ofBits, Ideal.ieee]

/-- An extended real whose absolute value max a (−a) is below ⊤ is neither ⊤ nor ⊥. -/
theorem ne_top_bot_of_abs_lt_top (a : EReal) (h : max a (-a) < ⊤) : a ≠ ⊤ ∧ a ≠ ⊥ := by
  constructor
  · rintro rfl
    simp at h
  · rintro rfl
    simp at h

/-- If the all-elements conjunction of "|x| < +∞" is one, every element of x is a real number. -/
theorem finite_of_fn (x : FVec Ideal Cert.Pre_finite_inputs.S8192x128 .f32) (t : IVec Cert.Pre_finite_inputs.S8192 32)
    (h : Cert.Pre_finite_inputs.fn (F := Ideal) x t = fun _ => 1#1) (i : Cert.Pre_finite_inputs.S8192x128.Idx) :
    x i ≠ ⊤ ∧ x i ≠ ⊥ := by
  have h0 := congrFun h ValueIdx.ix0
  dsimp only [Cert.Pre_finite_inputs.fn] at h0
  have hi := Host.reduce_andi_all _ _ _ _ _ h0 i
  rw [ValueIdx.cmpf_apply] at hi
  change Ideal.cmp .olt (max (x i) (-(x i))) (Ideal.ofBits .f32 0x7F800000#32) = 1#1 at hi
  rw [word_pos_inf] at hi
  refine ne_top_bot_of_abs_lt_top (x i) ?_
  by_contra hn
  simp [Ideal.cmp, hn] at hi

/-- Under the precondition, on every device, the feature at row i and column k is a real number. -/
theorem finite_of_pre
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (i : Fin 8192) (k : Fin 128) :
    m ((c.tc : Thread Cert.KernelIdeal.nD Cert.KernelIdeal.τ).loc Cert.KernelIdeal.main_arg0) (ValueIdx.ix2 i k) ≠ (⊤ : EReal)
      ∧ m ((c.tc : Thread Cert.KernelIdeal.nD Cert.KernelIdeal.τ).loc Cert.KernelIdeal.main_arg0) (ValueIdx.ix2 i k) ≠ (⊥ : EReal) :=
  finite_of_fn _ _ (hpre c) (ValueIdx.ix2 i k)

end Cert.Proof.Finite

end
-- ==== Proof.TileAlgebra.lean ====
/-
  Algebra and order on the extended reals for the tiled triplet loss.

  The squared distance of two rows as ONE product of augmented rows: for rows `u`, `v` of 128 entries, the augmented
  rows `[−2·u, |u|², 1]` and `[v, 1, |v|²]` have the product `Σ (−2·u_k)·v_k + |u|²·1 + 1·|v|²`; on finite entries
  that is `|u|² + |v|² − 2⟨u, v⟩`. The maximum (minimum) over all columns as the running maximum (minimum) over
  blocks of columns. The sum over 8192 rows as the sum over 16 blocks of 512 rows.
-/
import Mathlib.Data.EReal.Basic
import Mathlib.Data.EReal.Operations
import Mathlib.Algebra.BigOperators.Fin
import Mathlib.Order.CompleteLattice.Finset
import Mathlib.Data.Finset.Fold
import Mathlib.Logic.Equiv.Fin.Basic
import Idealize.ShloMosaic.PureOps.Ideal
import proofs.«173925_j63556926046454_1_alg».proof.Proof.Spec

noncomputable section

open scoped BigOperators

namespace Cert.Triplet

open Idealize.ShloMosaic

/-! ## The augmented product -/

/-- The inclusion of the reals commutes with finite sums. -/
theorem coe_real_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The product of the augmented rows `[−2·u, |u|², 1]` and `[v, 1, |v|²]`. -/
def augDot (u v : Fin 128 → EReal) : EReal :=
  (∑ k : Fin 128, (-2 * u k) * v k) + (∑ k : Fin 128, u k * u k) * 1 + 1 * (∑ k : Fin 128, v k * v k)

/-- On finite rows the augmented product is `|u|² + |v|² − 2⟨u, v⟩`. -/
theorem augDot_eq (u v : Fin 128 → EReal) (hu : ∀ k, u k ≠ ⊤ ∧ u k ≠ ⊥) (hv : ∀ k, v k ≠ ⊤ ∧ v k ≠ ⊥) :
    augDot u v = (∑ k, u k * u k) + (∑ k, v k * v k) - 2 * ∑ k, u k * v k := by
  lift u to Fin 128 → ℝ using hu
  lift v to Fin 128 → ℝ using hv
  have h2 : (2 : EReal) = ((2 : ℝ) : EReal) := by norm_cast
  unfold augDot
  simp only [h2, mul_one, one_mul, ← EReal.coe_neg, ← EReal.coe_mul, ← coe_real_sum, ← EReal.coe_add,
    ← EReal.coe_sub]
  congr 1
  simp only [mul_assoc, ← Finset.mul_sum]
  ring

/-- The distance of two finite rows from the augmented product. -/
theorem dist_of_rows (x : Feat) (hx : ∀ i k, x i k ≠ ⊤ ∧ x i k ≠ ⊥) (i j : Fin 8192) :
    Ideal.sqrt (max (augDot (x i) (x j)) 0) = dist x i j := by
  unfold dist d2 sqn gram
  rw [augDot_eq (x i) (x j) (hx i) (hx j)]

/-! ## The running maximum and minimum over blocks of columns -/

section Blocks

variable {α : Type*} [CompleteLinearOrder α] {N : ℕ}

/-- Over no column the maximum is the least element. -/
theorem iSup_lt_zero (f : Fin N → α) : (⨆ (j : Fin N) (_ : j.val < 0), f j) = ⊥ := by
  simp

/-- The maximum over the columns below `B·(a+1)` is the larger of the maximum over the columns below `B·a` and the
maximum over the block of `B` columns from `B·a`. -/
theorem iSup_lt_block_succ (f : Fin N → α) (B a : ℕ) (g : Fin B → Fin N)
    (hg : ∀ k : Fin B, (g k).val = B * a + k.val) :
    (⨆ (j : Fin N) (_ : j.val < B * (a + 1)), f j)
      = max (⨆ (j : Fin N) (_ : j.val < B * a), f j) (⨆ k : Fin B, f (g k)) := by
  have hs : B * (a + 1) = B * a + B := Nat.mul_succ B a
  apply le_antisymm
  · refine iSup₂_le fun j hj => ?_
    by_cases h : j.val < B * a
    · exact le_max_of_le_left (le_iSup₂ (f := fun (j : Fin N) (_ : j.val < B * a) => f j) j h)
    · have hk : j.val - B * a < B := by omega
      have e : g ⟨j.val - B * a, hk⟩ = j := by
        apply Fin.ext
        rw [hg]
        show B * a + (j.val - B * a) = j.val
        omega
      refine le_max_of_le_right ?_
      calc f j = f (g ⟨j.val - B * a, hk⟩) := by rw [e]
        _ ≤ ⨆ k : Fin B, f (g k) := le_iSup (fun k : Fin B => f (g k)) _
  · refine max_le ?_ ?_
    · refine iSup₂_le fun j hj => ?_
      exact le_iSup₂ (f := fun (j : Fin N) (_ : j.val < B * (a + 1)) => f j) j (by omega)
    · refine iSup_le fun k => ?_
      have hk : (g k).val < B * (a + 1) := by
        rw [hg, hs]
        have := k.isLt
        omega
      exact le_iSup₂ (f := fun (j : Fin N) (_ : j.val < B * (a + 1)) => f j) (g k) hk

/-- Once the bound passes every column the maximum is the maximum over all columns. -/
theorem iSup_lt_of_forall (f : Fin N → α) (M : ℕ) (h : ∀ j : Fin N, j.val < M) :
    (⨆ (j : Fin N) (_ : j.val < M), f j) = ⨆ j, f j := by
  simp [h]

/-- Over no column the minimum is the greatest element. -/
theorem iInf_lt_zero (f : Fin N → α) : (⨅ (j : Fin N) (_ : j.val < 0), f j) = ⊤ := by
  simp

/-- The minimum over the columns below `B·(a+1)` is the smaller of the minimum over the columns below `B·a` and the
minimum over the block of `B` columns from `B·a`. -/
theorem iInf_lt_block_succ (f : Fin N → α) (B a : ℕ) (g : Fin B → Fin N)
    (hg : ∀ k : Fin B, (g k).val = B * a + k.val) :
    (⨅ (j : Fin N) (_ : j.val < B * (a + 1)), f j)
      = min (⨅ (j : Fin N) (_ : j.val < B * a), f j) (⨅ k : Fin B, f (g k)) := by
  have hs : B * (a + 1) = B * a + B := Nat.mul_succ B a
  apply le_antisymm
  · refine le_min ?_ ?_
    · refine le_iInf₂ fun j hj => ?_
      exact iInf₂_le (f := fun (j : Fin N) (_ : j.val < B * (a + 1)) => f j) j (by omega)
    · refine le_iInf fun k => ?_
      have hk : (g k).val < B * (a + 1) := by
        rw [hg, hs]
        have := k.isLt
        omega
      exact iInf₂_le (f := fun (j : Fin N) (_ : j.val < B * (a + 1)) => f j) (g k) hk
  · refine le_iInf₂ fun j hj => ?_
    by_cases h : j.val < B * a
    · exact min_le_of_left_le (iInf₂_le (f := fun (j : Fin N) (_ : j.val < B * a) => f j) j h)
    · have hk : j.val - B * a < B := by omega
      have e : g ⟨j.val - B * a, hk⟩ = j := by
        apply Fin.ext
        rw [hg]
        show B * a + (j.val - B * a) = j.val
        omega
      refine min_le_of_right_le ?_
      calc (⨅ k : Fin B, f (g k)) ≤ f (g ⟨j.val - B * a, hk⟩) := iInf_le (fun k : Fin B => f (g k)) _
        _ = f j := by rw [e]

/-- Once the bound passes every column the minimum is the minimum over all columns. -/
theorem iInf_lt_of_forall (f : Fin N → α) (M : ℕ) (h : ∀ j : Fin N, j.val < M) :
    (⨅ (j : Fin N) (_ : j.val < M), f j) = ⨅ j, f j := by
  simp [h]

/-- Folding the maximum over a whole finite type from the least element gives the supremum. -/
theorem fold_max_bot_univ {ι : Type*} [Fintype ι] (f : ι → α) :
    (Finset.univ : Finset ι).fold max ⊥ f = ⨆ k, f k := by
  rw [← Finset.sup_univ_eq_iSup]
  rfl

/-- Folding the minimum over a whole finite type from the greatest element gives the infimum. -/
theorem fold_min_top_univ {ι : Type*} [Fintype ι] (f : ι → α) :
    (Finset.univ : Finset ι).fold min ⊤ f = ⨅ k, f k := by
  rw [← Finset.inf_univ_eq_iInf]
  rfl

end Blocks

/-! ## The sum over all rows by blocks of rows -/

/-- The sum over 8192 rows is the sum over 16 blocks of the sums over the 512 rows of each block. -/
theorem sum_blocks (g : Fin 8192 → EReal) :
    (∑ r : Fin 8192, g r) = ∑ a : Fin 16, ∑ p : Fin 512, g ⟨512 * a.val + p.val, by omega⟩ := by
  rw [← Fintype.sum_prod_type' (f := fun (a : Fin 16) (p : Fin 512) => g ⟨512 * a.val + p.val, by omega⟩)]
  symm
  refine Fintype.sum_equiv (finProdFinEquiv (m := 16) (n := 512)) _ _ ?_
  rintro ⟨a, p⟩
  refine congrArg g (Fin.ext ?_)
  show 512 * a.val + p.val = p.val + 512 * a.val
  omega

end Cert.Triplet

end
-- ==== Proof.TileValue.lean ====
/-
  The kernel body's values read at an index, at the ideal instance (a float is an extended real, every operation the
  exact one).

  One tile of the body takes a block of 512 anchor rows and a block of 512 candidate rows. Its tile of distances is,
  at row `p` and column `q`, the square root of the augmented inner product of anchor row `p` and candidate row `q`
  cut off below at zero: the augmented rows are `(−2·x_p, |x_p|², 1)` and `(x_q, 1, |x_q|²)` of length 130, and their
  inner product is `−2⟨x_p, x_q⟩ + |x_p|²·1 + 1·|x_q|²`. Its one-bit tile says whether the two rows' labels are equal.
  The row maximum of the distances over the equal-label columns (`⊥` elsewhere) and the row minimum over the others
  (`⊤` elsewhere) are the tile's two minings; the running maximum and minimum, the slack at margin one and the two
  initial columns `⊥` and `⊤` are read pointwise.
-/
import proofs.«173925_j63556926046454_1_alg».proof.Proof.Spec
import proofs.«173925_j63556926046454_1_alg».proof.Proof.TileAlgebra
import proofs.«173925_j63556926046454_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.TileValue

open Cert.KernelIdeal Cert.KernelIdeal.Gen Idealize.ShloMosaic Idealize.ShloMosaic.ValueIdx

/-! ## The pointwise columns -/

/-- The running maximum: at row `p`, the larger of the stored value and the tile's. -/
theorem pay1_apply (v33 v36 : Vec Ideal S512x1 .f32) (p : Fin 512) :
    k0_pay1 (F := Ideal) v33 v36 (ix2 p 0) = max (v36 (ix2 p 0)) (v33 (ix2 p 0)) := by
  unfold k0_pay1
  rw [shapeCast_self]
  rfl

/-- The running minimum: at row `p`, the smaller of the stored value and the tile's. -/
theorem pay2_apply (v35 v41 : Vec Ideal S512x1 .f32) (p : Fin 512) :
    k0_pay2 (F := Ideal) v35 v41 (ix2 p 0) = min (v41 (ix2 p 0)) (v35 (ix2 p 0)) := by
  unfold k0_pay2
  rw [shapeCast_self]
  rfl

/-- The slack at margin one: at row `p`, `max (a − b + 1) 0`. -/
theorem pay3_apply (v49 v50 : Vec Ideal S512x1 .f32) (p : Fin 512) :
    k0_pay3 (F := Ideal) v49 v50 (ix2 p 0) = max (v49 (ix2 p 0) - v50 (ix2 p 0) + 1) 0 := by
  unfold k0_pay3
  show max (v49 (ix2 p 0) - v50 (ix2 p 0) + Ideal.ofBits .f32 0x3F800000#32) (Ideal.ofBits .f32 0x00000000#32) = _
  rw [Cert.Triplet.ofBits_one, Ideal.ofBits_zero_f32]

/-- The initial column of the maximum is `⊥` everywhere. -/
theorem pay4_apply (p : Fin 512) : k0_pay4 (F := Ideal) (ix2 p 0) = ⊥ := by
  unfold k0_pay4
  rw [shapeCast_self]
  exact Cert.Triplet.ofBits_neg_inf

/-- The initial column of the minimum is `⊤` everywhere. -/
theorem pay5_apply (p : Fin 512) : k0_pay5 (F := Ideal) (ix2 p 0) = ⊤ := by
  unfold k0_pay5
  rw [shapeCast_self]
  exact Cert.Triplet.ofBits_pos_inf

/-! ## The one-bit tile: the two rows' labels are equal -/

/-- A column `[a, 1]` broadcast along the lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit tile at `(p, q)` is `1` exactly when anchor row `p`'s label is candidate row `q`'s. -/
theorem pay7_apply (x2 : Vec Ideal S512x1 .i32) (x3 : Vec Ideal S1x512 .i32) (p q : Fin 512) :
    k0_pay7 (F := Ideal) x2 x3 (ix2 p q) = 1#1 ↔ x2 (ix2 p 0) = x3 (ix2 0 q) := by
  unfold k0_pay7
  rw [shapeCast_self, shapeCast_self]
  show IntOp.cmpi .eq (broadcastTo S512x512 x2 broadcasts_S512x1_S512x512 (ix2 p q))
    (broadcastTo S512x512 x3 broadcasts_S1x512_S512x512 (ix2 p q)) = 1#1 ↔ _
  rw [broadcastTo_a1_ab_apply, broadcastTo_1b_ab_apply]
  exact IntOp.cmpi_eq

/-- A select on the one-bit tile at `(p, q)` is the `if` on the two labels being equal. -/
theorem select_pay7 {α : Type} (x2 : Vec Ideal S512x1 .i32) (x3 : Vec Ideal S1x512 .i32) (p q : Fin 512) (A B : α) :
    Scalar.select (k0_pay7 (F := Ideal) x2 x3 (ix2 p q)) A B = if x2 (ix2 p 0) = x3 (ix2 0 q) then A else B := by
  by_cases h : x2 (ix2 p 0) = x3 (ix2 0 q)
  · rw [if_pos h, (pay7_apply x2 x3 p q).mpr h, select_one]
  · rw [if_neg h, eq_zero_of_ne_one (fun h1 => h ((pay7_apply x2 x3 p q).mp h1)), select_zero]

/-! ## The one matrix product of the tile, read at an index -/

/-- The left operand's row coordinate at output index `i` is `i`'s row. -/
theorem lhs_dot_0 (i : S512x512.Idx) (q : dot_S512x130_S512x130_S512x512_1_1_0_0_n_n.contr.Idx) :
    (dot_S512x130_S512x130_S512x512_1_1_0_0_n_n.lhsIdx i q 0).val = (i 0).val := by
  unfold DotDims.lhsIdx
  rw [dif_neg (show ¬(0 : Fin S512x130.rank) ∈ dot_S512x130_S512x130_S512x512_1_1_0_0_n_n.lhsBatch by decide), dif_pos (show (0 : Fin S512x130.rank) ∈ dot_S512x130_S512x130_S512x512_1_1_0_0_n_n.lhsNonContracting by decide)]
  rfl
/-- The left operand's column coordinate is the contraction position. -/
theorem lhs_dot_1 (i : S512x512.Idx) (q : dot_S512x130_S512x130_S512x512_1_1_0_0_n_n.contr.Idx) :
    (dot_S512x130_S512x130_S512x512_1_1_0_0_n_n.lhsIdx i q 1).val = (q ⟨0, by decide⟩).val :=
  dot_S512x130_S512x130_S512x512_1_1_0_0_n_n.lhsIdx_val_of_single rfl i q
/-- The right operand's row coordinate at output index `i` is `i`'s column. -/
theorem rhs_dot_0 (i : S512x512.Idx) (q : dot_S512x130_S512x130_S512x512_1_1_0_0_n_n.contr.Idx) :
    (dot_S512x130_S512x130_S512x512_1_1_0_0_n_n.rhsIdx i q 0).val = (i 1).val := by
  unfold DotDims.rhsIdx
  rw [dif_neg (show ¬(0 : Fin S512x130.rank) ∈ dot_S512x130_S512x130_S512x512_1_1_0_0_n_n.rhsBatch by decide), dif_pos (show (0 : Fin S512x130.rank) ∈ dot_S512x130_S512x130_S512x512_1_1_0_0_n_n.rhsNonContracting by decide)]
  rfl
/-- The right operand's column coordinate is the contraction position. -/
theorem rhs_dot_1 (i : S512x512.Idx) (q : dot_S512x130_S512x130_S512x512_1_1_0_0_n_n.contr.Idx) :
    (dot_S512x130_S512x130_S512x512_1_1_0_0_n_n.rhsIdx i q 1).val = (q ⟨0, by decide⟩).val :=
  dot_S512x130_S512x130_S512x512_1_1_0_0_n_n.rhsIdx_val_of_single rfl i q

/-- The product of two `512 × 130` operands along their columns, into zero: at `(p, q)` the inner product of the
    left operand's row `p` and the right operand's row `q`. -/
theorem matmul_zero_apply (L R : FVec Ideal S512x130 .f32) (p q : Fin 512) :
    matmul (F := Ideal) dot_S512x130_S512x130_S512x512_1_1_0_0_n_n (some .fp32) L R
        (constant (F := Ideal) S512x512 .f32 0x00000000#32) (ix2 p q)
      = ∑ c : Fin 130, L (ix2 p c) * R (ix2 q c) := by
  simp only [matmul]
  rw [Ideal.matmul_constant_zero_apply, ← Equiv.sum_comp (contrEquiv1 dot_S512x130_S512x130_S512x512_1_1_0_0_n_n 130 rfl rfl).symm]
  refine Finset.sum_congr rfl fun k _ => ?_
  have hk := contrEquiv1_symm_val dot_S512x130_S512x130_S512x512_1_1_0_0_n_n 130 rfl rfl k
  have el : dot_S512x130_S512x130_S512x512_1_1_0_0_n_n.lhsIdx (ix2 p q) ((contrEquiv1 dot_S512x130_S512x130_S512x512_1_1_0_0_n_n 130 rfl rfl).symm k) = ix2 p k := funext fun a => Fin.ext (by
    match a with
    | ⟨0, _⟩ => exact lhs_dot_0 _ _
    | ⟨1, _⟩ => exact (lhs_dot_1 _ _).trans hk)
  have er : dot_S512x130_S512x130_S512x512_1_1_0_0_n_n.rhsIdx (ix2 p q) ((contrEquiv1 dot_S512x130_S512x130_S512x512_1_1_0_0_n_n 130 rfl rfl).symm k) = ix2 q k := funext fun a => Fin.ext (by
    match a with
    | ⟨0, _⟩ => exact rhs_dot_0 _ _
    | ⟨1, _⟩ => exact (rhs_dot_1 _ _).trans hk)
  rw [el, er]

/-! ## The lane sum and the concatenation along the lanes -/

/-- The lane sum of a `512 × 128` block, as a column: at row `p` the sum of row `p`. -/
theorem laneSum_apply (y : FVec Ideal S512x128 .f32) (p : Fin 512) :
    shapeCast S512x1 (multiReduction (F := Ideal) .add [1] S512 y 0x00000000#32 reduces_S512x128_S512 (.inl rfl) rfl)
      shapeCasts_S512_S512x1 (ix2 p 0) = ∑ k : Fin 128, y (ix2 p k) := by
  refine (shapeCast_apply _ shapeCasts_S512_S512x1 (ix2 p 0) (ix1 p) ?_).trans ?_
  · rw [Shape.rowMajor_val_two, Shape.rowMajor_val_one]
    show p.val = p.val * 1 + 0
    omega
  · refine (Ideal.multiReduction_add_single (a := 1) y 0x00000000#32 reduces_S512x128_S512 (.inl rfl) rfl (ix1 p)).trans ?_
    refine Finset.sum_congr rfl fun k _ => congrArg y (funext fun a => Fin.ext ?_)
    match a with
    | ⟨0, _⟩ => rfl
    | ⟨1, _⟩ => rfl

/-- Three blocks `[512, 128]`, `[512, 1]`, `[512, 1]` laid side by side: a column below 128 reads the first block. -/
theorem concat_apply_0 {α : Type} (A : S512x128.Idx → α) (B C : S512x1.Idx → α) (p : Fin 512) (c : Fin 130)
    (k : Fin 128) (hc : c.val = k.val) :
    concatenate S512x130 1 [⟨S512x128, A⟩, ⟨S512x1, B⟩, ⟨S512x1, C⟩]
      concatenates_S512x128_S512x1_S512x1_S512x130_d1 (ix2 p c) = A (ix2 p k) := by
  refine concatenate_apply_piece (1 : Fin S512x130.rank) _ _ (ix2 p c) 0 (by show (0 : Nat) < 3; omega) S512x128 A rfl rfl 0 rfl
    (ix2 p k) (fun b hb => ?_) ?_
  · match b with
    | ⟨0, _⟩ => rfl
    | ⟨1, _⟩ => exact absurd rfl hb
  · show 0 + k.val = c.val
    omega

/-- Column 128 reads the second block. -/
theorem concat_apply_1 {α : Type} (A : S512x128.Idx → α) (B C : S512x1.Idx → α) (p : Fin 512) (c : Fin 130)
    (hc : c.val = 128) :
    concatenate S512x130 1 [⟨S512x128, A⟩, ⟨S512x1, B⟩, ⟨S512x1, C⟩]
      concatenates_S512x128_S512x1_S512x1_S512x130_d1 (ix2 p c) = B (ix2 p 0) := by
  refine concatenate_apply_piece (1 : Fin S512x130.rank) _ _ (ix2 p c) 1 (by show (1 : Nat) < 3; omega) S512x1 B rfl rfl 128 rfl
    (ix2 p 0) (fun b hb => ?_) ?_
  · match b with
    | ⟨0, _⟩ => rfl
    | ⟨1, _⟩ => exact absurd rfl hb
  · show 128 + 0 = c.val
    omega

/-- Column 129 reads the third block. -/
theorem concat_apply_2 {α : Type} (A : S512x128.Idx → α) (B C : S512x1.Idx → α) (p : Fin 512) (c : Fin 130)
    (hc : c.val = 129) :
    concatenate S512x130 1 [⟨S512x128, A⟩, ⟨S512x1, B⟩, ⟨S512x1, C⟩]
      concatenates_S512x128_S512x1_S512x1_S512x130_d1 (ix2 p c) = C (ix2 p 0) := by
  refine concatenate_apply_piece (1 : Fin S512x130.rank) _ _ (ix2 p c) 2 (by show (2 : Nat) < 3; omega) S512x1 C rfl rfl 129 rfl
    (ix2 p 0) (fun b hb => ?_) ?_
  · match b with
    | ⟨0, _⟩ => rfl
    | ⟨1, _⟩ => exact absurd rfl hb
  · show 129 + 0 = c.val
    omega

/-! ## The two augmented operands of the product -/

/-- The anchor block's augmented rows `(−2·x, |x|², 1)`. -/
def augL (x0 : Vec Ideal S512x128 .f32) : FVec Ideal S512x130 .f32 :=
  concatenate S512x130 1
    [⟨S512x128, mulf (broadcast S512x128 (Scalar.ofBits (F := Ideal) .f32 0xC0000000#32)) x0⟩,
     ⟨S512x1, shapeCast S512x1 (multiReduction (F := Ideal) .add [1] S512 (mulf x0 x0) 0x00000000#32
        reduces_S512x128_S512 (.inl rfl) rfl) shapeCasts_S512_S512x1⟩,
     ⟨S512x1, broadcast S512x1 (Scalar.ofBits (F := Ideal) .f32 0x3F800000#32)⟩]
    concatenates_S512x128_S512x1_S512x1_S512x130_d1

/-- The candidate block's augmented rows `(x, 1, |x|²)`. -/
def augR (x1 : Vec Ideal S512x128 .f32) : FVec Ideal S512x130 .f32 :=
  concatenate S512x130 1
    [⟨S512x128, x1⟩,
     ⟨S512x1, broadcast S512x1 (Scalar.ofBits (F := Ideal) .f32 0x3F800000#32)⟩,
     ⟨S512x1, shapeCast S512x1 (multiReduction (F := Ideal) .add [1] S512 (mulf x1 x1) 0x00000000#32
        reduces_S512x128_S512 (.inl rfl) rfl) shapeCasts_S512_S512x1⟩]
    concatenates_S512x128_S512x1_S512x1_S512x130_d1

/-- The tile of distances is the square root of the product of the augmented operands cut off below at zero. -/
theorem pay6_eq (x0 x1 : Vec Ideal S512x128 .f32) :
    k0_pay6 (F := Ideal) x0 x1
      = sqrt (maximumf (matmul (F := Ideal) dot_S512x130_S512x130_S512x512_1_1_0_0_n_n (some .fp32) (augL x0) (augR x1)
          (constant (F := Ideal) S512x512 .f32 0x00000000#32))
          (broadcast S512x512 (Scalar.ofBits (F := Ideal) .f32 0x00000000#32))) := rfl

/-- An anchor's augmented row at a column `k` below 128 is `−2·x_p[k]`. -/
theorem augL_apply_lt (x0 : Vec Ideal S512x128 .f32) (p : Fin 512) (c : Fin 130) (k : Fin 128) (hc : c.val = k.val) :
    augL x0 (ix2 p c) = -2 * x0 (ix2 p k) := by
  unfold augL
  refine (concat_apply_0 _ _ _ p c k hc).trans ?_
  show Ideal.ofBits .f32 0xC0000000#32 * x0 (ix2 p k) = _
  rw [Cert.Triplet.ofBits_neg_two]

/-- At column 128 it is the row's squared norm. -/
theorem augL_apply_128 (x0 : Vec Ideal S512x128 .f32) (p : Fin 512) (c : Fin 130) (hc : c.val = 128) :
    augL x0 (ix2 p c) = ∑ k : Fin 128, x0 (ix2 p k) * x0 (ix2 p k) := by
  unfold augL
  refine (concat_apply_1 _ _ _ p c hc).trans ?_
  exact laneSum_apply (mulf x0 x0) p

/-- At column 129 it is one. -/
theorem augL_apply_129 (x0 : Vec Ideal S512x128 .f32) (p : Fin 512) (c : Fin 130) (hc : c.val = 129) :
    augL x0 (ix2 p c) = 1 := by
  unfold augL
  refine (concat_apply_2 _ _ _ p c hc).trans ?_
  exact Cert.Triplet.ofBits_one

/-- A candidate's augmented row at a column `k` below 128 is `x_q[k]`. -/
theorem augR_apply_lt (x1 : Vec Ideal S512x128 .f32) (q : Fin 512) (c : Fin 130) (k : Fin 128) (hc : c.val = k.val) :
    augR x1 (ix2 q c) = x1 (ix2 q k) := by
  unfold augR
  exact concat_apply_0 _ _ _ q c k hc

/-- At column 128 it is one. -/
theorem augR_apply_128 (x1 : Vec Ideal S512x128 .f32) (q : Fin 512) (c : Fin 130) (hc : c.val = 128) :
    augR x1 (ix2 q c) = 1 := by
  unfold augR
  refine (concat_apply_1 _ _ _ q c hc).trans ?_
  exact Cert.Triplet.ofBits_one

/-- At column 129 it is the row's squared norm. -/
theorem augR_apply_129 (x1 : Vec Ideal S512x128 .f32) (q : Fin 512) (c : Fin 130) (hc : c.val = 129) :
    augR x1 (ix2 q c) = ∑ k : Fin 128, x1 (ix2 q k) * x1 (ix2 q k) := by
  unfold augR
  refine (concat_apply_2 _ _ _ q c hc).trans ?_
  exact laneSum_apply (mulf x1 x1) q

/-- The inner product of the two augmented rows is the first 128 terms, then `|x_p|²·1`, then `1·|x_q|²`. -/
theorem aug_inner (x0 x1 : Vec Ideal S512x128 .f32) (p q : Fin 512) :
    ∑ c : Fin 130, augL x0 (ix2 p c) * augR x1 (ix2 q c)
      = Cert.Triplet.augDot (fun k => x0 (ix2 p k)) (fun k => x1 (ix2 q k)) := by
  rw [Fin.sum_univ_castSucc, Fin.sum_univ_castSucc]
  unfold Cert.Triplet.augDot
  rw [augL_apply_128 x0 p _ rfl, augR_apply_128 x1 q _ rfl, augL_apply_129 x0 p _ rfl, augR_apply_129 x1 q _ rfl]
  refine congrArg (fun t => t + _ + _) (Finset.sum_congr rfl fun k _ => ?_)
  rw [augL_apply_lt x0 p _ k rfl, augR_apply_lt x1 q _ k rfl]

/-! ## The tile of distances -/

/-- At `(p, q)`: the square root of the augmented inner product of anchor row `p` and candidate row `q`, cut off
    below at zero. -/
theorem pay6_apply (x0 x1 : Vec Ideal S512x128 .f32) (p q : Fin 512) :
    k0_pay6 (F := Ideal) x0 x1 (ix2 p q)
      = Ideal.sqrt (max (Cert.Triplet.augDot (fun k => x0 (ix2 p k)) (fun k => x1 (ix2 q k))) 0) := by
  rw [pay6_eq]
  show Ideal.sqrt (max (matmul (F := Ideal) dot_S512x130_S512x130_S512x512_1_1_0_0_n_n (some .fp32) (augL x0) (augR x1)
      (constant (F := Ideal) S512x512 .f32 0x00000000#32) (ix2 p q)) (Ideal.ofBits .f32 0x00000000#32)) = _
  rw [matmul_zero_apply, aug_inner, Ideal.ofBits_zero_f32]

/-! ## The lane maximum and minimum, and the two minings of the tile -/

/-- A lane minimum over one axis from the accumulator's value: the fold of `min` over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The lane maximum of a `512 × 512` tile from `⊥`, as a column: at row `p` the supremum of row `p`. -/
theorem laneMax_apply (y : FVec Ideal S512x512 .f32) (p : Fin 512) :
    shapeCast S512x1 (multiReduction (F := Ideal) .maximumf [1] S512 y 0xFF800000#32 reduces_S512x512_S512 (.inl rfl) rfl)
      shapeCasts_S512_S512x1 (ix2 p 0) = ⨆ q : Fin 512, y (ix2 p q) := by
  refine (shapeCast_apply _ shapeCasts_S512_S512x1 (ix2 p 0) (ix1 p) ?_).trans ?_
  · rw [Shape.rowMajor_val_two, Shape.rowMajor_val_one]
    show p.val = p.val * 1 + 0
    omega
  · refine (Ideal.multiReduction_maximumf_single (a := 1) y 0xFF800000#32 reduces_S512x512_S512 (.inl rfl) rfl (ix1 p)).trans ?_
    show (Finset.univ : Finset (Fin 512)).fold max (Ideal.ofBits .f32 0xFF800000#32)
      (fun q : Fin 512 => y (reduces_S512x512_S512.lift (ix1 p) q)) = _
    rw [Cert.Triplet.ofBits_neg_inf, Cert.Triplet.fold_max_bot_univ]
    refine iSup_congr fun q => congrArg y (funext fun a => Fin.ext ?_)
    match a with
    | ⟨0, _⟩ => rfl
    | ⟨1, _⟩ => rfl

/-- The lane minimum of a `512 × 512` tile from `⊤`, as a column: at row `p` the infimum of row `p`. -/
theorem laneMin_apply (y : FVec Ideal S512x512 .f32) (p : Fin 512) :
    shapeCast S512x1 (multiReduction (F := Ideal) .minimumf [1] S512 y 0x7F800000#32 reduces_S512x512_S512 (.inl rfl) rfl)
      shapeCasts_S512_S512x1 (ix2 p 0) = ⨅ q : Fin 512, y (ix2 p q) := by
  refine (shapeCast_apply _ shapeCasts_S512_S512x1 (ix2 p 0) (ix1 p) ?_).trans ?_
  · rw [Shape.rowMajor_val_two, Shape.rowMajor_val_one]
    show p.val = p.val * 1 + 0
    omega
  · refine (multiReduction_minimumf_single (a := 1) y 0x7F800000#32 reduces_S512x512_S512 (.inl rfl) rfl (ix1 p)).trans ?_
    show (Finset.univ : Finset (Fin 512)).fold min (Ideal.ofBits .f32 0x7F800000#32)
      (fun q : Fin 512 => y (reduces_S512x512_S512.lift (ix1 p) q)) = _
    rw [Cert.Triplet.ofBits_pos_inf, Cert.Triplet.fold_min_top_univ]
    refine iInf_congr fun q => congrArg y (funext fun a => Fin.ext ?_)
    match a with
    | ⟨0, _⟩ => rfl
    | ⟨1, _⟩ => rfl

/-- The tile's hardest positive of anchor row `p`: the largest distance to a candidate row with the anchor's label,
    `⊥` where there is none. -/
theorem pay8_apply (x0 x1 : Vec Ideal S512x128 .f32) (x2 : Vec Ideal S512x1 .i32) (x3 : Vec Ideal S1x512 .i32) (p : Fin 512) :
    k0_pay8 (F := Ideal) x0 x1 x2 x3 (ix2 p 0)
      = ⨆ q : Fin 512, (if x2 (ix2 p 0) = x3 (ix2 0 q)
          then Ideal.sqrt (max (Cert.Triplet.augDot (fun k => x0 (ix2 p k)) (fun k => x1 (ix2 q k))) 0) else ⊥) := by
  unfold k0_pay8
  refine (laneMax_apply _ p).trans ?_
  refine iSup_congr fun q => ?_
  refine (select_pay7 x2 x3 p q _ _).trans ?_
  rw [pay6_apply]
  exact if_congr Iff.rfl rfl Cert.Triplet.ofBits_neg_inf

/-- The tile's hardest negative of anchor row `p`: the smallest distance to a candidate row with another label,
    `⊤` where there is none. -/
theorem pay9_apply (x0 x1 : Vec Ideal S512x128 .f32) (x2 : Vec Ideal S512x1 .i32) (x3 : Vec Ideal S1x512 .i32) (p : Fin 512) :
    k0_pay9 (F := Ideal) x0 x1 x2 x3 (ix2 p 0)
      = ⨅ q : Fin 512, (if x2 (ix2 p 0) = x3 (ix2 0 q) then ⊤
          else Ideal.sqrt (max (Cert.Triplet.augDot (fun k => x0 (ix2 p k)) (fun k => x1 (ix2 q k))) 0)) := by
  unfold k0_pay9
  refine (laneMin_apply _ p).trans ?_
  refine iInf_congr fun q => ?_
  refine (select_pay7 x2 x3 p q _ _).trans ?_
  rw [pay6_apply]
  exact if_congr Iff.rfl Cert.Triplet.ofBits_pos_inf rfl

end Cert.KernelIdeal.TileValue

end
-- ==== Proof.FrameIdeal.Setup.lean ====
/-
  What the three runs of the kernel body and the proof data share.

  The grid is 16 × 16, the second coordinate fastest: point `t` is row block `t / 16` against column block `t % 16`.
  The body resets its two scratch columns (the running largest positive and smallest negative distance of the row
  block) where the column block is the first, and writes the row block's slack into the output window where it is the
  last: the two conditions in closed form over the grid, where the output window is idle, the memrefs the pipeline
  calls the body with, the region-entry contents of the arrays and each window's block read off them.
-/
import proofs.«173925_j63556926046454_1_alg».proof.Proof.Gen.KernelIdeal.Launch
import proofs.«173925_j63556926046454_1_alg».proof.Proof.Gen.KernelIdeal.Skeleton
import proofs.«173925_j63556926046454_1_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two conditions of the body, over the grid -/

/-- The column block is the first one (the body's first `scf.if`, its scalar chain written out). -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)
/-- The column block is the last one (the body's second `scf.if`). -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-- The output window is idle away from the last column block, where the pipeline does not write it back either, -/
theorem idle_out : ∀ t : Fin cfg0.N, ¬condLast (grid0.coords t) → cfg0.idle 4 (grid0.coords t) = true := by decide +kernel
theorem noFlush_out : ∀ t : Fin cfg0.N, ¬condLast (grid0.coords t) → (cfg0.win 4).flush t = false := by decide +kernel
/-- and live at it. -/
theorem live_out : ∀ t : Fin cfg0.N, condLast (grid0.coords t) → cfg0.idle 4 (grid0.coords t) = false := by decide +kernel

/-! ## Whole-block accesses -/

theorem hz2 : (![0, 0] : Fin 2 → Nat) = fun _ => 0 := by funext a; fin_cases a <;> rfl

/-- A whole-block store, made last, is what a 512 × 1 buffer reads back, whatever was stored before. -/
theorem read_writes_col {sp : Space} (v : View sig .tc sp S512x1 .f32) (f : v.ty.Contents (Elt F))
    (w : S512x1.Idx → Elt F .f32) (L : List (View.Piece (Elt F) S512x1 .f32)) :
    v.read (Elt F) (v.writes (Elt F) f ((⟨Rect.unit (s := S512x1) ![0, 0] S512x1.size inb_S512x1_S512x1_0_0, w⟩ : View.Piece (Elt F) S512x1 .f32) :: L)) = w := by
  rw [View.read_writes_eq_canon _ _ _ (fun y => ⟨_, List.mem_cons_self, by
    show y ∈ (Rect.unit (s := S512x1) ![0, 0] S512x1.size inb_S512x1_S512x1_0_0).set
    rw [show (Rect.unit (s := S512x1) ![0, 0] S512x1.size inb_S512x1_S512x1_0_0) = Rect.whole S512x1 from by
      congr 1; exact hz2]
    rw [Rect.set_whole]; exact Finset.mem_univ y⟩), View.canon_cons_unit_zero hz2]

/-! ## The memrefs the pipeline calls the body with -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The two scratch columns: the running largest positive distance, the running smallest negative distance. -/
abbrev scMax : Memref sig .tc .vmem S512x1 .f32 := Memref.whole cc0_scratch0
abbrev scMin : Memref sig .tc .vmem S512x1 .f32 := Memref.whole cc0_scratch1

/-- The scoped buffers no window stages are the two scratch columns, each owned whole at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scMin fullShare d)) := by
  rw [scopedRest0_eq]; simp only [scMax, scMin, owns_whole]; try rfl

/-! ## The arrays as the region finds them -/

/-- Core `c`'s buffers at launch, as a valuation; -/
abbrev V₀ (c : Dev nD) : Valuation τ sig (Elt F) := fun b => m ((c : Dev nD), b)
/-- after the two reshapes of the label vector that precede the region; -/
abbrev V₁ (c : Dev nD) : Valuation τ sig (Elt F) := StableHlo.after hostOps0 (V₀ m c)
/-- read at a TensorCore reference. -/
abbrev V (c : Dev nD) (b : Ref sig .tc) : Buf (Elt F) ((c : Thread nD τ).loc b) := V₁ m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (unfetched, the
    block index has not moved since the point that fetched it), for any proof data whose array is the region-entry
    contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Frm

end
-- ==== Proof.FrameIdeal.RunFirst.lean ====
/-
  The kernel body at a point of the FIRST column block: the two scratch columns are reset (to −∞ and +∞) before the
  tile's largest positive and smallest negative distances are folded in, so whatever they held is forgotten; nothing
  is stored into the output window. The run hands back every input buffer as found, the output buffer as found, and
  the scratch columns at the tile's maxima joined with −∞ and its minima joined with +∞.
-/
import proofs.«173925_j63556926046454_1_alg».proof.Proof.FrameIdeal.Setup

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple at such a point, on any whole memrefs. -/
theorem runFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : condFirst i) (hc1 : ¬condLast i)
    (x0 x1 : Vec F S512x128 .f32) (x2 : Vec F S512x1 .i32) (x3 : Vec F S1x512 .i32) (xo : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xo
            ∗ owns (c : Thread nD τ) arg7 fullShare (k0_pay1 (k0_pay8 x0 x1 x2 x3) (k0_pay4 (F := F)))
            ∗ owns (c : Thread nD τ) arg8 fullShare (k0_pay2 (k0_pay9 x0 x1 x2 x3) (k0_pay5 (F := F)))) -∗ K ⟨⟩))
      ⊢ wp frame (wpE (defs₀ (F := F)) Variants.none c none) E
          (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%fo, %hfo, HO⟩, ⟨%xm, %fm, %hfm, HM⟩, ⟨%xl, %fl, %hfl, HL⟩, Hk⟩
  obtain rfl := harg2.eq_unread hf0; obtain rfl := harg3.eq_unread hf1
  obtain rfl := harg4.eq_unread hf2; obtain rfl := harg5.eq_unread hf3
  obtain rfl := harg6.eq_unread hfo; obtain rfl := harg7.eq_unread hfm; obtain rfl := harg8.eq_unread hfl
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  isplitl [HM]
  · iexists _; isplitr; swap; · iexact HM
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  · iexists _; isplitr; swap; · iexact HL
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]

end Cert.KernelIdeal.Frm

end
-- ==== Proof.FrameIdeal.RunMid.lean ====
/-
  The kernel body at a point of a MIDDLE column block: the tile's largest positive and smallest negative distances are
  folded into the two scratch columns over what the point before left there; nothing is stored into the output window.
-/
import proofs.«173925_j63556926046454_1_alg».proof.Proof.FrameIdeal.Setup

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple at such a point, on any whole memrefs. -/
theorem runMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condFirst i) (hc1 : ¬condLast i)
    (x0 x1 : Vec F S512x128 .f32) (x2 : Vec F S512x1 .i32) (x3 : Vec F S1x512 .i32) (xo : Vec F S512x1 .f32) (xm xl : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ owns (c : Thread nD τ) arg7 fullShare xm ∗ owns (c : Thread nD τ) arg8 fullShare xl
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xo
            ∗ owns (c : Thread nD τ) arg7 fullShare (k0_pay1 (k0_pay8 x0 x1 x2 x3) xm)
            ∗ owns (c : Thread nD τ) arg8 fullShare (k0_pay2 (k0_pay9 x0 x1 x2 x3) xl)) -∗ K ⟨⟩))
      ⊢ wp frame (wpE (defs₀ (F := F)) Variants.none c none) E
          (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%fo, %hfo, HO⟩, ⟨%fm, %hfm, HM⟩, ⟨%fl, %hfl, HL⟩, Hk⟩
  obtain rfl := harg2.eq_unread hf0; obtain rfl := harg3.eq_unread hf1
  obtain rfl := harg4.eq_unread hf2; obtain rfl := harg5.eq_unread hf3
  obtain rfl := harg6.eq_unread hfo; obtain rfl := harg7.eq_unread hfm; obtain rfl := harg8.eq_unread hfl
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  isplitl [HM]
  · iexists _; isplitr; swap; · iexact HM
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  · iexists _; isplitr; swap; · iexact HL
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]

end Cert.KernelIdeal.Frm

end
-- ==== Proof.FrameIdeal.RunLast.lean ====
/-
  The kernel body at a point of the LAST column block: the tile's largest positive and smallest negative distances are
  folded into the scratch columns, which the body then reads back to store the row block's slack,
  max (largest positive − smallest negative + 1) 0, into the output window, whatever that buffer held.
-/
import proofs.«173925_j63556926046454_1_alg».proof.Proof.FrameIdeal.Setup

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple at such a point, on any whole memrefs. -/
theorem runLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condFirst i) (hc1 : condLast i)
    (x0 x1 : Vec F S512x128 .f32) (x2 : Vec F S512x1 .i32) (x3 : Vec F S1x512 .i32) (xm xl : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare xm ∗ owns (c : Thread nD τ) arg8 fullShare xl
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k0_pay3 (k0_pay1 (k0_pay8 x0 x1 x2 x3) xm) (k0_pay2 (k0_pay9 x0 x1 x2 x3) xl))
            ∗ owns (c : Thread nD τ) arg7 fullShare (k0_pay1 (k0_pay8 x0 x1 x2 x3) xm)
            ∗ owns (c : Thread nD τ) arg8 fullShare (k0_pay2 (k0_pay9 x0 x1 x2 x3) xl)) -∗ K ⟨⟩))
      ⊢ wp frame (wpE (defs₀ (F := F)) Variants.none c none) E
          (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%xo, %fo, %hfo, HO⟩, ⟨%fm, %hfm, HM⟩, ⟨%fl, %hfl, HL⟩, Hk⟩
  obtain rfl := harg2.eq_unread hf0; obtain rfl := harg3.eq_unread hf1
  obtain rfl := harg4.eq_unread hf2; obtain rfl := harg5.eq_unread hf3
  obtain rfl := harg6.eq_unread hfo; obtain rfl := harg7.eq_unread hfm; obtain rfl := harg8.eq_unread hfl
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]
  · iexists _; isplitr; swap; · iexact HO
    ipureintro
    sl_unfold_words
    rw [read_writes_col]
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  isplitl [HM]
  · iexists _; isplitr; swap; · iexact HM
    ipureintro
    sl_unfold_words
    rw [read_writes_col]
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  · iexists _; isplitr; swap; · iexact HL
    ipureintro
    sl_unfold_words
    rw [read_writes_col]
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]

end Cert.KernelIdeal.Frm

end
-- ==== Proof.FrameIdeal.Data.lean ====
/-
  The proof data of the one pipeline and its body obligation.

  After the body at point `t` the two scratch columns hold the tile's largest positive and smallest negative distances
  joined with what the point before left, or with −∞ / +∞ where the column block is the first (`carried`); at a point
  of the last column block the output window's buffer holds the slack computed from them (`outAt`); every input
  window's buffer holds its block. Between points the invariant is the two scratch columns at `carried` (before the
  first point: at anything). The feature array reaches the body through two windows, each at half of its share.
-/
import proofs.«173925_j63556926046454_1_alg».proof.Proof.FrameIdeal.RunFirst
import proofs.«173925_j63556926046454_1_alg».proof.Proof.FrameIdeal.RunMid
import proofs.«173925_j63556926046454_1_alg».proof.Proof.FrameIdeal.RunLast

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the buffers hold, point by point -/

/-- The largest positive and the smallest negative distance of the tile at point `t`, row by row: the body's two
    reductions of the point's four input blocks. -/
abbrev tileMax (c : Dev nD) (t : Fin cfg0.N) : Vec F S512x1 .f32 := k0_pay8 (iblk m c 0 t) (iblk m c 1 t) (iblk m c 2 t) (iblk m c 3 t)
abbrev tileMin (c : Dev nD) (t : Fin cfg0.N) : Vec F S512x1 .f32 := k0_pay9 (iblk m c 0 t) (iblk m c 1 t) (iblk m c 2 t) (iblk m c 3 t)

/-- The two scratch columns after the body at position `n`: the tile's reductions folded into −∞ / +∞ at the first
    column block of a row block, into what the position before left otherwise. -/
def carried (c : Dev nD) : (n : ℕ) → n < cfg0.N → Vec F S512x1 .f32 × Vec F S512x1 .f32
  | 0, hn => (k0_pay1 (tileMax m c ⟨0, hn⟩) (k0_pay4 (F := F)), k0_pay2 (tileMin m c ⟨0, hn⟩) (k0_pay5 (F := F)))
  | n + 1, hn =>
    if (n + 1) % 16 = 0 then
      (k0_pay1 (tileMax m c ⟨n + 1, hn⟩) (k0_pay4 (F := F)), k0_pay2 (tileMin m c ⟨n + 1, hn⟩) (k0_pay5 (F := F)))
    else
      (k0_pay1 (tileMax m c ⟨n + 1, hn⟩) (carried c n (Nat.lt_of_succ_lt hn)).1, k0_pay2 (tileMin m c ⟨n + 1, hn⟩) (carried c n (Nat.lt_of_succ_lt hn)).2)

theorem carried_first (c : Dev nD) (t : Fin cfg0.N) (h0 : t.val % 16 = 0) :
    carried m c t.val t.isLt = (k0_pay1 (tileMax m c t) (k0_pay4 (F := F)), k0_pay2 (tileMin m c t) (k0_pay5 (F := F))) := by
  obtain ⟨n, hn⟩ := t
  cases n with
  | zero => rfl
  | succ n => exact (if_pos h0).trans rfl

theorem carried_next (c : Dev nD) (t : Fin cfg0.N) (h0 : ¬t.val % 16 = 0) :
    carried m c t.val t.isLt = (k0_pay1 (tileMax m c t) (carried m c (t.val - 1) (Nat.lt_of_le_of_lt (Nat.sub_le _ _) t.isLt)).1,
      k0_pay2 (tileMin m c t) (carried m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The slack column the body stores at a point of the last column block, from the scratch columns it has just updated. -/
def outAt (c : Dev nD) (t : Fin cfg0.N) : Vec F S512x1 .f32 := k0_pay3 (carried m c t.val t.isLt).1 (carried m c t.val t.isLt).2

/-- The invariant before position `n`: the scratch columns at anything before the first point, then at what the position
    before left. -/
def PhiS (c : Dev nD) : (n : ℕ) → n ≤ cfg0.N → sProp 𝕄
  | 0, _ => Pipeline.scopedRest spec0 c
  | n + 1, hn => iprop(owns (c : Thread nD τ) scMax fullShare (carried m c n hn).1 ∗ owns (c : Thread nD τ) scMin fullShare (carried m c n hn).2)

theorem PhiS_succ (c : Dev nD) (n : ℕ) (hn : n < cfg0.N) :
    PhiS m c (n + 1) hn = iprop(owns (c : Thread nD τ) scMax fullShare (carried m c n hn).1 ∗ owns (c : Thread nD τ) scMin fullShare (carried m c n hn).2) := rfl

theorem PhiS_pos (c : Dev nD) (n : ℕ) (h : n ≤ cfg0.N) (hz : n ≠ 0) :
    PhiS m c n h = iprop(owns (c : Thread nD τ) scMax fullShare (carried m c (n - 1) (by omega)).1 ∗ owns (c : Thread nD τ) scMin fullShare (carried m c (n - 1) (by omega)).2) := by
  cases n with
  | zero => exact absurd rfl hz
  | succ n => rfl

/-- At any position the invariant yields the two scratch columns at some contents. -/
theorem PhiS_forget (c : Dev nD) (n : ℕ) (h : n ≤ cfg0.N) :
    PhiS m c n h ⊢ iprop((∃ d, owns (c : Thread nD τ) scMax fullShare d) ∗ (∃ d, owns (c : Thread nD τ) scMin fullShare d)) := by
  cases n with
  | zero => exact Entails.of_eq (scopedRest_scratch c)
  | succ n =>
    rw [PhiS_succ]
    iintro ⟨HM, HL⟩
    isplitl [HM]; · iexists _; iexact HM
    iexists _; iexact HL

/-! ## The proof data -/

/-- The arrays as the region finds them; after the body each input's buffer at its block and the output's at the slack
    column; the invariant `PhiS`; nothing owed; the feature array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d

/-- An input window's buffer is handed back at its block (an input is never idle). -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the column block decides which of the three runs applies; the invariant hands the run the
    scratch columns and takes them back at this point's contents; the output window's buffer comes back untouched
    except at the last column block, where it holds the slack column. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 256 := lt_of_lt_of_eq t.isLt (show cfg0.N = 256 from N_0)
  by_cases h0 : t.val % 16 = 0
  · have hl : ¬t.val % 16 = 15 := by omega
    rw [Dat.leavesExact_idle (dats m 0 c) 4 t (idle_out t (fun h => hl ((condLast_iff t).mp h))) (noFlush_out t (fun h => hl ((condLast_iff t).mp h)))]
    rw [carried_first m c t h0]
    iintro ⟨HS, Ho, ⟨%d0, H0⟩, ⟨%d1, H1⟩, ⟨%d2, H2⟩, ⟨%d3, H3⟩, ⟨%d4, H4⟩⟩
    ihave HS' := (PhiS_forget m c _ _) $$ HS
    icases HS' with ⟨HM, HL⟩
    iapply (runFirst c (grid0.coords t) (ms0 t) (hs0 t) (ms1 t) (hs1 t) (ms2 t) (hs2 t) (ms3 t) (hs3 t) (ms4 t) (hs4 t) scMax (Memref.isWhole_whole _) scMin (Memref.isWhole_whole _)
      ((condFirst_iff t).mpr h0) (fun h => hl ((condLast_iff t).mp h)) (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HM]; · iexact HM
    isplitl [HL]; · iexact HL
    iintro ⟨H0, H1, H2, H3, H4, HM, HL⟩
    isplitl [HM HL]
    · isplitl [HM]; · iexact HM
      iexact HL
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos m c _ _ hz, carried_next m c t h0]
    by_cases hl : t.val % 16 = 15
    · rw [show (dats m 0 c).leavesExact 4 t = owns (c : Thread nD τ) (ms4 t) fullShare ((dats m 0 c).after 4 t) from by
        unfold Dat.leavesExact; rw [live_out t ((condLast_iff t).mpr hl)], after4]
      unfold outAt
      rw [carried_next m c t h0]
      iintro ⟨HS, Ho, ⟨%d0, H0⟩, ⟨%d1, H1⟩, ⟨%d2, H2⟩, ⟨%d3, H3⟩, ⟨%d4, H4⟩⟩
      icases HS with ⟨HM, HL⟩
      iapply (runLast c (grid0.coords t) (ms0 t) (hs0 t) (ms1 t) (hs1 t) (ms2 t) (hs2 t) (ms3 t) (hs3 t) (ms4 t) (hs4 t) scMax (Memref.isWhole_whole _) scMin (Memref.isWhole_whole _)
        (fun h => h0 ((condFirst_iff t).mp h)) ((condLast_iff t).mpr hl) (iblk m c 0 t) (iblk m c 1 t) (iblk m c 2 t) (iblk m c 3 t) (carried m c (t.val - 1) (by omega)).1 (carried m c (t.val - 1) (by omega)).2 Set.univ _)
      isplitl [H0]; · iexact H0
      isplitl [H1]; · iexact H1
      isplitl [H2]; · iexact H2
      isplitl [H3]; · iexact H3
      isplitl [H4]; · iexists _; iexact H4
      isplitl [HM]; · iexact HM
      isplitl [HL]; · iexact HL
      iintro ⟨H0, H1, H2, H3, H4, HM, HL⟩
      isplitl [HM HL]
      · isplitl [HM]; · iexact HM
        iexact HL
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle_out t (fun h => hl ((condLast_iff t).mp h))) (noFlush_out t (fun h => hl ((condLast_iff t).mp h)))]
      iintro ⟨HS, Ho, ⟨%d0, H0⟩, ⟨%d1, H1⟩, ⟨%d2, H2⟩, ⟨%d3, H3⟩, ⟨%d4, H4⟩⟩
      icases HS with ⟨HM, HL⟩
      iapply (runMid c (grid0.coords t) (ms0 t) (hs0 t) (ms1 t) (hs1 t) (ms2 t) (hs2 t) (ms3 t) (hs3 t) (ms4 t) (hs4 t) scMax (Memref.isWhole_whole _) scMin (Memref.isWhole_whole _)
        (fun h => h0 ((condFirst_iff t).mp h)) (fun h => hl ((condLast_iff t).mp h)) (iblk m c 0 t) (iblk m c 1 t) (iblk m c 2 t) (iblk m c 3 t) ((dats m 0 c).before 4 t d4) (carried m c (t.val - 1) (by omega)).1 (carried m c (t.val - 1) (by omega)).2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      iintro ⟨H0, H1, H2, H3, H4, HM, HL⟩
      isplitl [HM HL]
      · isplitl [HM]; · iexact HM
        iexact HL
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the two scratch columns at anything — is the invariant before the first point, -/
theorem hin (c : Dev nD) : Pipeline.scopedRest spec0 c ⊢ (dats m 0 c).Φ 0 := by
  rw [show (dats m 0 c).Φ 0 = PhiS m c 0 (Nat.zero_le _) from rfl]
  exact Entails.of_eq rfl

/-- and after the last point the invariant gives them back. -/
theorem hout (c : Dev nD) : (dats m 0 c).Φ (Fin.last cfg0.N) ⊢ Pipeline.scopedRest spec0 c := by
  rw [show (dats m 0 c).Φ (Fin.last cfg0.N) = PhiS m c (Fin.last cfg0.N).val (Nat.le_of_lt_succ (Fin.last cfg0.N).isLt) from rfl, scopedRest_scratch]
  exact PhiS_forget m c _ _

end Cert.KernelIdeal.Frm

end
-- ==== Proof.FrameIdeal.Blocks.lean ====
/-
  Where a block's element sits in its array.

  The grid is 16 × 16 with the second coordinate fastest: point `t` pairs row block `t / 16` with column block
  `t % 16`. Each window's block index at `t` is read off once over the 256 points; a block read through its window is
  then the array read at (block index × block extent + the coordinate inside the block) on every axis. The feature array
  reaches the region as launched; the two label arrays are the label vector laid out as a column and as a row, so their
  element at row `r` is the vector's element `r`. Every row of the output column lies in the block of a point of the
  last column block, the points that write the output back.
-/
import proofs.«173925_j63556926046454_1_alg».proof.Proof.FrameIdeal.Setup
import Idealize.ShloMosaic.Lib.ValueIdx
import Idealize.ShloMosaic.Lib.Pipeline.Value
import Idealize.ShloMosaic.Lib.StableHlo.Run

set_option maxRecDepth 16384

noncomputable section

namespace Cert.KernelIdeal.Frm

open Cert.KernelIdeal Cert.KernelIdeal.Gen Idealize.ShloMosaic Idealize.ShloMosaic.ValueIdx
open Idealize.ShloMosaic.TcCoe Idealize.SL.Sem

variable {F : FTy → Type} [FloatOps F]
variable (m : (ℓ : Loc nD τ sig) → Buf (Elt F) ℓ)

/-- A grid point is one of 256. -/
theorem point_lt (t : Fin cfg0.N) : t.val < 256 := lt_of_lt_of_eq t.isLt N_0

/-! ## The arrays as the region finds them -/

/-- No operation before the region writes the feature array: it is as launched. -/
theorem V_arg0 (c : Dev nD) : V m c main_arg0 = m ((c : Thread nD τ).loc main_arg0) := by
  show StableHlo.after hostOps0 (V₀ m c) (Proc.devRef .tc main_arg0) = _
  after_results

/-- The label column is the label vector laid out as 8192 × 1, -/
theorem V_v0_eq (c : Dev nD) : (V m c main_v0 : S8192x1.Idx → Elt F .i32)
    = shapeCast S8192x1 (m ((c : Thread nD τ).loc main_arg1) : S8192.Idx → Elt F .i32) shapeCasts_S8192_S8192x1 := by
  show StableHlo.after hostOps0 (V₀ m c) (Proc.devRef .tc main_v0) = _
  after_results
  rfl

/-- and the label row the same vector laid out as 1 × 8192. -/
theorem V_v1_eq (c : Dev nD) : (V m c main_v1 : S1x8192.Idx → Elt F .i32)
    = shapeCast S1x8192 (m ((c : Thread nD τ).loc main_arg1) : S8192.Idx → Elt F .i32) shapeCasts_S8192_S1x8192 := by
  show StableHlo.after hostOps0 (V₀ m c) (Proc.devRef .tc main_v1) = _
  after_results
  rfl

/-- Row `r` of the label column is element `r` of the label vector: both sit at row-major position `r`. -/
theorem V_v0_apply (c : Dev nD) (r : Fin 8192) :
    V m c main_v0 (ix2 r (0 : Fin 1)) = m ((c : Thread nD τ).loc main_arg1) (ix1 r) := by
  rw [V_v0_eq]
  exact shapeCast_apply _ _ _ _ (by
    show (S8192.rowMajor (ix1 r)).val = (S8192x1.rowMajor (ix2 r (0 : Fin 1))).val
    rw [Shape.rowMajor_val_one, Shape.rowMajor_val_two]
    show r.val = r.val * 1 + 0
    omega)

/-- Column `r` of the label row is element `r` of the label vector. -/
theorem V_v1_apply (c : Dev nD) (r : Fin 8192) :
    V m c main_v1 (ix2 (0 : Fin 1) r) = m ((c : Thread nD τ).loc main_arg1) (ix1 r) := by
  rw [V_v1_eq]
  exact shapeCast_apply _ _ _ _ (by
    show (S8192.rowMajor (ix1 r)).val = (S1x8192.rowMajor (ix2 (0 : Fin 1) r)).val
    rw [Shape.rowMajor_val_one, Shape.rowMajor_val_two]
    show r.val = 0 * 8192 + r.val
    omega)

/-! ## The block index of each window at each point, read off over the grid -/

/-- The row operand of the features moves with the row block, -/
theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
/-- the column operand of the features with the column block, -/
theorem idx1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
/-- the label column with the row block, -/
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
/-- the label row with the column block, -/
theorem idx3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
/-- and the output column with the row block. -/
theorem idx4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-! ## A block read is the array read at block index × extent + the coordinate inside the block -/

/-- Row `p` of the row operand's block at `t` is row `512 (t / 16) + p` of the features. -/
theorem iblk0_apply (c : Dev nD) (t : Fin cfg0.N) (p : Fin 512) (k : Fin 128) :
    iblk m c 0 t (ix2 p k)
      = V m c main_arg0 (ix2 (⟨512 * (t.val / 16) + p.val, by have := point_lt t; omega⟩ : Fin 8192) k) := by
  unfold iblk
  rw [View.read_apply]
  show V m c main_arg0 (((cfg0.win 0).blk t).view.emb (ix2 p k)) = V m c main_arg0 _
  obtain ⟨e0, e1⟩ := idx0 t
  refine congrArg (V m c main_arg0) ?_
  funext a; apply Fin.ext
  match a with
  | ⟨0, _⟩ => show win0_0.index t (0 : Fin 2) * 512 + 1 * p.val = 512 * (t.val / 16) + p.val; omega
  | ⟨1, _⟩ => show win0_0.index t (1 : Fin 2) * 128 + 1 * k.val = k.val; omega

/-- Row `q` of the column operand's block at `t` is row `512 (t % 16) + q` of the features. -/
theorem iblk1_apply (c : Dev nD) (t : Fin cfg0.N) (q : Fin 512) (k : Fin 128) :
    iblk m c 1 t (ix2 q k)
      = V m c main_arg0 (ix2 (⟨512 * (t.val % 16) + q.val, by omega⟩ : Fin 8192) k) := by
  unfold iblk
  rw [View.read_apply]
  show V m c main_arg0 (((cfg0.win 1).blk t).view.emb (ix2 q k)) = V m c main_arg0 _
  obtain ⟨e0, e1⟩ := idx1 t
  refine congrArg (V m c main_arg0) ?_
  funext a; apply Fin.ext
  match a with
  | ⟨0, _⟩ => show win0_1.index t (0 : Fin 2) * 512 + 1 * q.val = 512 * (t.val % 16) + q.val; omega
  | ⟨1, _⟩ => show win0_1.index t (1 : Fin 2) * 128 + 1 * k.val = k.val; omega

/-- Row `p` of the label column's block at `t` is row `512 (t / 16) + p` of the label column. -/
theorem iblk2_apply (c : Dev nD) (t : Fin cfg0.N) (p : Fin 512) :
    iblk m c 2 t (ix2 p (0 : Fin 1))
      = V m c main_v0 (ix2 (⟨512 * (t.val / 16) + p.val, by have := point_lt t; omega⟩ : Fin 8192) (0 : Fin 1)) := by
  unfold iblk
  rw [View.read_apply]
  show V m c main_v0 (((cfg0.win 2).blk t).view.emb (ix2 p (0 : Fin 1))) = V m c main_v0 _
  obtain ⟨e0, e1⟩ := idx2 t
  refine congrArg (V m c main_v0) ?_
  funext a; apply Fin.ext
  match a with
  | ⟨0, _⟩ => show win0_2.index t (0 : Fin 2) * 512 + 1 * p.val = 512 * (t.val / 16) + p.val; omega
  | ⟨1, _⟩ => show win0_2.index t (1 : Fin 2) * 1 + 1 * 0 = 0; omega

/-- Column `q` of the label row's block at `t` is column `512 (t % 16) + q` of the label row. -/
theorem iblk3_apply (c : Dev nD) (t : Fin cfg0.N) (q : Fin 512) :
    iblk m c 3 t (ix2 (0 : Fin 1) q)
      = V m c main_v1 (ix2 (0 : Fin 1) (⟨512 * (t.val % 16) + q.val, by omega⟩ : Fin 8192)) := by
  unfold iblk
  rw [View.read_apply]
  show V m c main_v1 (((cfg0.win 3).blk t).view.emb (ix2 (0 : Fin 1) q)) = V m c main_v1 _
  obtain ⟨e0, e1⟩ := idx3 t
  refine congrArg (V m c main_v1) ?_
  funext a; apply Fin.ext
  match a with
  | ⟨0, _⟩ => show win0_3.index t (0 : Fin 2) * 1 + 1 * 0 = 0; omega
  | ⟨1, _⟩ => show win0_3.index t (1 : Fin 2) * 512 + 1 * q.val = 512 * (t.val % 16) + q.val; omega

/-! ## The output column -/

/-- Row `p` of the output's block at `t`, read off any contents of the output column, is their row `512 (t / 16) + p`. -/
theorem blk4_read_apply (G : (⟨S8192x1, .f32⟩ : BufTy).Contents (Elt F)) (t : Fin cfg0.N) (p : Fin 512) :
    ((cfg0.win 4).blk t).view.read (Elt F) G (ix2 p (0 : Fin 1))
      = G (ix2 (⟨512 * (t.val / 16) + p.val, by have := point_lt t; omega⟩ : Fin 8192) (0 : Fin 1)) := by
  rw [View.read_apply]
  show G (((cfg0.win 4).blk t).view.emb (ix2 p (0 : Fin 1))) = G _
  obtain ⟨e0, e1⟩ := idx4 t
  refine congrArg G ?_
  funext a; apply Fin.ext
  match a with
  | ⟨0, _⟩ => show win0_4.index t (0 : Fin 2) * 512 + 1 * p.val = 512 * (t.val / 16) + p.val; omega
  | ⟨1, _⟩ => show win0_4.index t (1 : Fin 2) * 1 + 1 * 0 = 0; omega

/-- An index of the output column is in point `t`'s block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v2).slice (win0_4.rect t)).set ↔ _
  rw [View.set_slice_whole, Rect.mem_set_unit]
  exact Iff.rfl

/-- Every row of the output column lies in the block of a point that writes it back: row `r` in that of the last
    column block against row block `r / 512`. -/
theorem cover4 : ∀ i : S8192x1.Idx, ∃ t : Fin cfg0.N, (cfg0.win 4).flush t = true ∧ i ∈ ((cfg0.win 4).blk t).view.set := by
  intro i
  have hi0 : (i 0).val < 8192 := (i 0).isLt
  have hi1 : (i 1).val < 1 := (i 1).isLt
  obtain ⟨t, ht⟩ : ∃ t : Fin cfg0.N, t.val = 16 * ((i 0).val / 512) + 15 :=
    ⟨⟨16 * ((i 0).val / 512) + 15, lt_of_lt_of_eq (by omega) N_0.symm⟩, rfl⟩
  obtain ⟨e0, e1⟩ := idx4 t
  refine ⟨t, (flush0_4 t).mpr (by omega), ?_⟩
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1 ≤ (i 1).val ∧ (i 1).val < win0_4.index t (1 : Fin 2) * 1 + 1
    omega

end Cert.KernelIdeal.Frm

end
-- ==== Proof.FrameIdeal.Tail.lean ====
/-
  What the four host operations after the region compute from the output array: the sum of the 8192 slacks (a float sum
  from the word for zero) divided by the word for 8192.
-/
import proofs.«173925_j63556926046454_1_alg».proof.Proof.Gen.KernelIdeal

noncomputable section

namespace Cert.KernelIdeal.Frm

open Cert.KernelIdeal Cert.KernelIdeal.Gen Idealize.ShloMosaic

variable {F : FTy → Type} [FloatOps F]

/-- The result buffer as a function of the region's output array. -/
def tailOf (Y : (⟨S8192x1, .f32⟩ : BufTy).Contents (Elt F)) : (⟨S_, .f32⟩ : BufTy).Contents (Elt F) :=
  Host.divf (Host.reduceAdd Y (constant S_ .f32 0x00000000#32) Facts₀.reducesTo_S8192x1_S_d0_1 Facts₀.h_S_) (constant S_ .f32 0x46000000#32)

end Cert.KernelIdeal.Frm

end
-- ==== Proof.TailValue.lean ====
/-
  The mean of the slacks: what the operations after the region compute from the region's output column, on the
  extended reals.

  The output is an [8192, 1] column. Its float sum over both axes, started from the word for zero, is the sum over the
  8192 rows of the column's entries: the second axis has one coordinate, so the sum over all index pairs is the sum over
  the first coordinate alone, and zero added in front changes nothing. The quotient by the word for 8192 is then, at the
  one index of the scalar result, the extended-real division of that sum by that word. When every entry of the column
  is the row's slack, the result is the loss.
-/
import proofs.«173925_j63556926046454_1_alg».proof.Proof.Spec
import proofs.«173925_j63556926046454_1_alg».proof.Proof.FrameIdeal.Tail
import Idealize.ShloMosaic.Lib.ValueIdx
import Idealize.ShloMosaic.PureOps.Ideal.Laws

noncomputable section

open scoped BigOperators

namespace Cert.KernelIdeal.TailValue

open Cert.KernelIdeal Cert.KernelIdeal.Gen Cert.KernelIdeal.Frm Idealize.ShloMosaic Idealize.ShloMosaic.ValueIdx

/-- A sum over the index pairs of an [n, 1] column is the sum over the rows of the entries at (row, 0): the second
    coordinate takes the one value 0. -/
theorem sum_column {n : Nat} (f : (⟨2, ![n, 1]⟩ : Shape).Idx → EReal) :
    ∑ i, f i = ∑ r : Fin n, f (ix2 r 0) := by
  rw [sum_idx2]
  exact Finset.sum_congr rfl fun r _ => Fin.sum_univ_one fun b : Fin 1 => f (ix2 r b)

/-- The float sum of the column over both axes, from the word for zero, at the one scalar index: the sum of the 8192
    entries. -/
theorem reduceAdd_column (Y : (⟨S8192x1, .f32⟩ : BufTy).Contents (Elt Ideal)) (j : S_.Idx) :
    Host.reduceAdd (F := Ideal) Y (constant (F := Ideal) S_ .f32 0x00000000#32) Facts₀.reducesTo_S8192x1_S_d0_1 Facts₀.h_S_ j
      = ∑ r : Fin 8192, Y (ix2 r 0) := by
  refine (Ideal.hostReduceAdd_total (Facts₀.reducesTo_S8192x1_S_d0_1) (fun b => b.elim0) Y
    (Ideal.ofBits .f32 0x00000000#32) j).trans ?_
  rw [Ideal.ofBits_zero_f32, zero_add, sum_column]

/-- The result of the operations after the region: at its one index, the sum of the column's 8192 entries divided by
    the word for 8192. -/
theorem tailOf_eq (Y : (⟨S8192x1, .f32⟩ : BufTy).Contents (Elt Ideal)) :
    tailOf (F := Ideal) Y = fun _ => Ideal.div (∑ r : Fin 8192, Y (ix2 r 0)) (Ideal.ofBits .f32 0x46000000#32) := by
  funext j
  unfold tailOf
  exact congrArg (fun s => Ideal.div s (Ideal.ofBits .f32 0x46000000#32)) (reduceAdd_column Y j)

/-- When every entry of the column is its row's slack, the result is the loss: the mean slack. -/
theorem tailOf_slack (x : Cert.Triplet.Feat) (t : Cert.Triplet.Lab) (Y : (⟨S8192x1, .f32⟩ : BufTy).Contents (Elt Ideal))
    (hY : ∀ r : Fin 8192, Y (ix2 r 0) = Cert.Triplet.slack x t r) :
    tailOf (F := Ideal) Y = fun _ => Cert.Triplet.loss x t := by
  rw [tailOf_eq]
  funext _
  unfold Cert.Triplet.loss
  exact congrArg (fun s => Ideal.div s (Ideal.ofBits .f32 0x46000000#32)) (Finset.sum_congr rfl fun r _ => hY r)

end Cert.KernelIdeal.TailValue

end
-- ==== Proof.GridValue.lean ====
/-
  The idealized kernel's output array and result as functions of the arguments.

  Point `t` of the 16 × 16 grid pairs the row block `t / 16` with the column block `t % 16`. Over a row block's sixteen
  points the two scratch columns accumulate, row by row, the largest positive and the smallest negative distance
  over the columns seen so far: after the point of column block `b` they hold the supremum of the positive candidates
  and the infimum of the negative candidates over the columns below `512 · (b + 1)` (`carried_apply`, by induction
  along the grid; each tile contributes its block's supremum / infimum, and on finite features the tile's augmented
  product is the squared distance of the specification). At the last column block that is the hardest positive and the
  hardest negative over all 8192 columns, so the column stored into the output window is the row block's slack, the
  output array ends holding the slack of every row, and the host operations after the region return the loss.
-/
import proofs.«173925_j63556926046454_1_alg».proof.Proof.Spec
import proofs.«173925_j63556926046454_1_alg».proof.Proof.TileAlgebra
import proofs.«173925_j63556926046454_1_alg».proof.Proof.TileValue
import proofs.«173925_j63556926046454_1_alg».proof.Proof.FrameIdeal.Data
import proofs.«173925_j63556926046454_1_alg».proof.Proof.FrameIdeal.Blocks
import proofs.«173925_j63556926046454_1_alg».proof.Proof.FrameIdeal.Tail
import proofs.«173925_j63556926046454_1_alg».proof.Proof.TailValue
import Idealize.ShloMosaic.Lib.ValueIdx
import Idealize.ShloMosaic.Lib.Pipeline.Value

set_option maxRecDepth 16384

noncomputable section

namespace Cert.KernelIdeal.GridValue

open Cert.KernelIdeal Cert.KernelIdeal.Gen Cert.KernelIdeal.Frm Cert.KernelIdeal.TileValue Cert.Triplet
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The features by row and column and the labels by row, as core `c` is launched with them. -/
abbrev featOf : Feat := fun i k => m ((c : Thread nD τ).loc main_arg0) (ix2 i k)
abbrev labOf : Lab := fun i => m ((c : Thread nD τ).loc main_arg1) (ix1 i)

theorem hN (t : Fin cfg0.N) : t.val < 256 := lt_of_lt_of_eq t.isLt (show cfg0.N = 256 from N_0)

/-- Row `p` of point `t`'s row block, and column `q` of its column block, as rows of the feature array. -/
def rowOf (t : Fin cfg0.N) (p : Fin 512) : Fin 8192 := ⟨512 * (t.val / 16) + p.val, by have := hN t; have := p.isLt; omega⟩
def colOf (t : Fin cfg0.N) (q : Fin 512) : Fin 8192 := ⟨512 * (t.val % 16) + q.val, by have := q.isLt; omega⟩

theorem colOf_val (t : Fin cfg0.N) (q : Fin 512) : (colOf t q).val = 512 * (t.val % 16) + q.val := rfl

variable (hfin : ∀ i k, featOf m c i k ≠ ⊤ ∧ featOf m c i k ≠ ⊥)

/-! ## One tile -/

theorem row_block (t : Fin cfg0.N) (p : Fin 512) : (fun k => iblk m c 0 t (ix2 p k)) = featOf m c (rowOf t p) :=
  funext fun k => by rw [iblk0_apply, V_arg0]; rfl
theorem col_block (t : Fin cfg0.N) (q : Fin 512) : (fun k => iblk m c 1 t (ix2 q k)) = featOf m c (colOf t q) :=
  funext fun k => by rw [iblk1_apply, V_arg0]; rfl
theorem row_label (t : Fin cfg0.N) (p : Fin 512) : iblk m c 2 t (ix2 p 0) = labOf m c (rowOf t p) := by
  rw [iblk2_apply, V_v0_apply]; rfl
theorem col_label (t : Fin cfg0.N) (q : Fin 512) : iblk m c 3 t (ix2 0 q) = labOf m c (colOf t q) := by
  rw [iblk3_apply, V_v1_apply]; rfl

include hfin in
/-- The tile's largest positive distance in row `p`: the supremum of the row's positive candidates over the tile's columns. -/
theorem tileMax_apply (t : Fin cfg0.N) (p : Fin 512) :
    tileMax m c t (ix2 p 0) = ⨆ q : Fin 512, posCand (featOf m c) (labOf m c) (rowOf t p) (colOf t q) := by
  rw [show tileMax m c t = k0_pay8 (F := Ideal) (iblk m c 0 t) (iblk m c 1 t) (iblk m c 2 t) (iblk m c 3 t) from rfl, pay8_apply]
  refine iSup_congr fun q => ?_
  rw [row_block, col_block, row_label, col_label, dist_of_rows (featOf m c) hfin]
  rfl

include hfin in
/-- The tile's smallest negative distance in row `p`. -/
theorem tileMin_apply (t : Fin cfg0.N) (p : Fin 512) :
    tileMin m c t (ix2 p 0) = ⨅ q : Fin 512, negCand (featOf m c) (labOf m c) (rowOf t p) (colOf t q) := by
  rw [show tileMin m c t = k0_pay9 (F := Ideal) (iblk m c 0 t) (iblk m c 1 t) (iblk m c 2 t) (iblk m c 3 t) from rfl, pay9_apply]
  refine iInf_congr fun q => ?_
  rw [row_block, col_block, row_label, col_label, dist_of_rows (featOf m c) hfin]
  rfl

/-! ## Along a row block -/

include hfin in
/-- After the point of column block `b = n % 16` the scratch columns hold, in row `p`, the supremum of the positive and the
    infimum of the negative candidates over the columns below `512 · (b + 1)`. -/
theorem carried_apply (n : ℕ) : ∀ (hn : n < cfg0.N) (p : Fin 512),
    (carried m c n hn).1 (ix2 p 0)
        = ⨆ (j : Fin 8192) (_ : j.val < 512 * (n % 16 + 1)), posCand (featOf m c) (labOf m c) (rowOf ⟨n, hn⟩ p) j
      ∧ (carried m c n hn).2 (ix2 p 0)
        = ⨅ (j : Fin 8192) (_ : j.val < 512 * (n % 16 + 1)), negCand (featOf m c) (labOf m c) (rowOf ⟨n, hn⟩ p) j := by
  induction n with
  | zero =>
    intro hn p
    rw [show carried m c 0 hn = _ from carried_first m c ⟨0, hn⟩ rfl]
    dsimp only
    rw [pay1_apply, pay2_apply, pay4_apply, pay5_apply, tileMax_apply m c hfin, tileMin_apply m c hfin]
    rw [show 512 * (0 % 16 + 1) = 512 * (0 + 1) from rfl,
      iSup_lt_block_succ _ 512 0 (colOf ⟨0, hn⟩) (fun k => rfl), iInf_lt_block_succ _ 512 0 (colOf ⟨0, hn⟩) (fun k => rfl)]
    rw [show 512 * 0 = 0 from rfl, iSup_lt_zero, iInf_lt_zero]
    exact ⟨rfl, rfl⟩
  | succ n ih =>
    intro hn p
    have hN' : n + 1 < 256 := hN ⟨n + 1, hn⟩
    by_cases h0 : (n + 1) % 16 = 0
    · rw [show carried m c (n + 1) hn = _ from carried_first m c ⟨n + 1, hn⟩ h0]
      dsimp only
      rw [pay1_apply, pay2_apply, pay4_apply, pay5_apply, tileMax_apply m c hfin, tileMin_apply m c hfin]
      rw [h0, show 512 * (0 + 1) = 512 * (0 + 1) from rfl,
        iSup_lt_block_succ _ 512 0 (colOf ⟨n + 1, hn⟩) (fun k => by rw [colOf_val]; show 512 * ((n + 1) % 16) + k.val = _; rw [h0]),
        iInf_lt_block_succ _ 512 0 (colOf ⟨n + 1, hn⟩) (fun k => by rw [colOf_val]; show 512 * ((n + 1) % 16) + k.val = _; rw [h0])]
      rw [show 512 * 0 = 0 from rfl, iSup_lt_zero, iInf_lt_zero]
      exact ⟨rfl, rfl⟩
    · rw [show carried m c (n + 1) hn = _ from carried_next m c ⟨n + 1, hn⟩ h0]
      dsimp only
      obtain ⟨ih1, ih2⟩ := ih (Nat.lt_of_succ_lt hn) p
      have hrow : rowOf ⟨n, Nat.lt_of_succ_lt hn⟩ p = rowOf ⟨n + 1, hn⟩ p := Fin.ext (by
        show 512 * (n / 16) + p.val = 512 * ((n + 1) / 16) + p.val; omega)
      have hb : n % 16 + 1 = (n + 1) % 16 := by omega
      rw [hrow, hb] at ih1 ih2
      rw [pay1_apply, pay2_apply, tileMax_apply m c hfin, tileMin_apply m c hfin]
      rw [iSup_lt_block_succ _ 512 ((n + 1) % 16) (colOf ⟨n + 1, hn⟩) (fun k => rfl),
        iInf_lt_block_succ _ 512 ((n + 1) % 16) (colOf ⟨n + 1, hn⟩) (fun k => rfl)]
      exact ⟨congrArg (max · _) ih1, congrArg (min · _) ih2⟩

include hfin in
/-- At a point of the last column block the stored column is the row block's slack. -/
theorem outAt_apply (t : Fin cfg0.N) (hl : t.val % 16 = 15) (p : Fin 512) :
    outAt m c t (ix2 p 0) = slack (featOf m c) (labOf m c) (rowOf t p) := by
  obtain ⟨h1, h2⟩ := carried_apply m c hfin t.val t.isLt p
  unfold outAt
  rw [pay3_apply, h1, h2, hl,
    iSup_lt_of_forall _ (512 * (15 + 1)) (fun j => by have := j.isLt; omega),
    iInf_lt_of_forall _ (512 * (15 + 1)) (fun j => by have := j.isLt; omega)]
  rfl

/-! ## The output array and the result -/

/-- The slack of every row, as an array of shape 8192 × 1. -/
def slackArr : (⟨S8192x1, .f32⟩ : BufTy).Contents (Elt Ideal) := fun y => slack (featOf m c) (labOf m c) ⟨(y 0).val, idx2_lt0 y⟩

theorem slackArr_apply (r : Fin 8192) : slackArr m c (ix2 r 0) = slack (featOf m c) (labOf m c) r := rfl

include hfin in
/-- What a point of the last column block writes back is its block of the slack array. -/
theorem flushed_eq (t : Fin cfg0.N) (hf : (cfg0.win 4).flush t = true) :
    (dats m 0 c).flushed 4 t = ((cfg0.win 4).blk t).view.read (Elt Ideal) (slackArr m c) := by
  have hl : t.val % 16 = 15 := (flush0_4 t).mp hf
  show (cfg0.win 4).cut (grid0.coords t) ((dats m 0 c).after 4 t) = _
  rw [after4]
  funext y
  obtain ⟨p, z, rfl⟩ : ∃ (p : Fin 512) (z : Fin 1), y = ix2 p z := ⟨y 0, y 1, eq_ix2 y⟩
  obtain rfl : z = 0 := Subsingleton.elim _ _
  show outAt m c t (ix2 p 0) = _
  rw [outAt_apply m c hfin t hl p, blk4_read_apply, slackArr_apply]
  rfl

include hfin in
/-- The output array after the run holds the slack of every row. -/
theorem final_out : (dats m 0 c).arrAt 4 cfg0.N = slackArr m c :=
  (dats m 0 c).arrAt_eq_of_cover 4 (slackArr m c) (fun t hf => flushed_eq m c hfin t hf) cover4

include hfin in
/-- The result buffer after the run holds the loss. -/
theorem kernel_value : tailOf (F := Ideal) ((dats m 0 c).arrAt 4 cfg0.N) = fun _ => loss (featOf m c) (labOf m c) := by
  rw [final_out m c hfin]
  exact Cert.KernelIdeal.TailValue.tailOf_slack (featOf m c) (labOf m c) (slackArr m c) (fun r => slackArr_apply m c r)

end Cert.KernelIdeal.GridValue

end
-- ==== Proof.FrameIdeal.Launch.lean ====
/-
  The launch: from the proof data of the one pipeline and its body obligation to the run of @main.

  @main is three segments: the two reshapes of the label vector into a column and a row; the kernel region over the
  16 × 16 grid, with five windows — the feature array twice (row blocks and column blocks), the label column, the label
  row, and the output column of slacks —; then the sum of the output column and its division by the row count. Between
  segments a core holds its nine unscoped buffers whole at a valuation and owes nothing. The feature array stands behind
  two windows, so its full share is dealt to them half and half at the region's entry; an input window's array is never
  written, so the halves come back at the same contents and join at the exit. The output array comes back at what the
  write-backs made of it; every other buffer is untouched by the region. At the end the result buffer holds the four
  closing operations applied to the output array's final contents, and both arguments hold what they held at launch.
-/
import proofs.«173925_j63556926046454_1_alg».proof.Proof.FrameIdeal.Data
import proofs.«173925_j63556926046454_1_alg».proof.Proof.FrameIdeal.Tail
import Idealize.ShloMosaic.Lib.Pipeline.Regions
import Idealize.ShloMosaic.Lib.Pipeline.Kit
import Idealize.ShloMosaic.Lib.Pipeline.Frame
import Idealize.ShloMosaic.Lib.StableHlo.Run
import Idealize.ShloMosaic.Rules.PointsTo

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares of the five windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The distinct buffers behind the five windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  rw [bigSep_eq_bigSepL_of_eq [main_arg0, main_v0, main_v1, main_v2] (by decide) (by decide)]
  rfl

/-- The pipeline's arrays, window by window: the feature array twice, at the two halves of its share. -/
theorem arrays_eq5 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2) ↦{fullShare} Fa 4)) := by
  unfold Dat.arrays
  rw [bigSep_W0]
  rw [share0, share1, share2, share3, share4]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ]

/-- The full share of the feature array is dealt to its two windows half and half. -/
theorem halves (c : Dev nD) (f : Buf (Elt F) ((c : Thread nD τ).loc main_arg0)) :
    ((((c : Thread nD τ).loc main_arg0) ↦{fullShare} f : sProp 𝕄))
      ⊣⊢ iprop((((c : Thread nD τ).loc main_arg0) ↦{fullShare.left} f) ∗ (((c : Thread nD τ).loc main_arg0) ↦{fullShare.right} f)) :=
  pointsTo_share (PosShare.mem_left_op_right fullShare)

/-- At the region's entry the four array buffers, as the host operations left them, are the pipeline's arrays at the
    proof data's entry contents. -/
theorem arrays_in (c : Dev nD) :
    (Pipeline.arrBufs spec0 c (V m c) : sProp 𝕄) ⊢ (dats m 0 c).arrays ((dats m 0 c).arrAt · 0) := by
  rw [arrBufs_eq, arrays_eq5]
  iintro ⟨H0, H2, H3, H4⟩
  ihave H := (halves c _).1 $$ H0
  icases H with ⟨Hl, Hr⟩
  isplitl [Hl]; · iexact Hl
  isplitl [Hr]; · iexact Hr
  isplitl [H2]; · iexact H2
  isplitl [H3]; · iexact H3
  iexact H4

/-- The buffers when the region is left: the output array at what the write-backs made of it, the rest untouched. -/
abbrev V₂ (c : Dev nD) : Valuation τ sig (Elt F) :=
  Function.update (V₁ m c) (Proc.devRef .tc main_v2) ((dats m 0 c).arrAt 4 cfg0.N)

theorem V₂_v2 (c : Dev nD) : V₂ m c (Proc.devRef .tc main_v2) = (dats m 0 c).arrAt 4 cfg0.N := Function.update_self ..
theorem V₂_ne (c : Dev nD) (b : Ref sig .tc) (h : b ≠ main_v2) : V₂ m c (Proc.devRef .tc b) = V₁ m c (Proc.devRef .tc b) :=
  Function.update_of_ne (StableHlo.devRef_ne_of_ne h) ..

/-- At the region's exit the pipeline's arrays at their final contents are the four array buffers at the new
    valuation: an input window's array is never written, so the feature array's two halves come back at one contents
    and join. -/
theorem arrays_out (c : Dev nD) :
    ((dats m 0 c).arrays ((dats m 0 c).arrAt · cfg0.N) : sProp 𝕄) ⊢ Pipeline.arrBufs spec0 c (fun b => V₂ m c b) := by
  rw [arrBufs_eq, arrays_eq5]
  rw [(dats m 0 c).arrAt_in 0 rfl cfg0.N, (dats m 0 c).arrAt_in 1 rfl cfg0.N, (dats m 0 c).arrAt_in 2 rfl cfg0.N,
    (dats m 0 c).arrAt_in 3 rfl cfg0.N]
  rw [V₂_v2, V₂_ne m c main_arg0 (by decide), V₂_ne m c main_v0 (by decide), V₂_ne m c main_v1 (by decide)]
  iintro ⟨Hl, Hr, H2, H3, H4⟩
  isplitl [Hl Hr]
  · iapply (halves c _).2
    isplitl [Hl]; · iexact Hl
    iexact Hr
  isplitl [H2]; · iexact H2
  isplitl [H3]; · iexact H3
  iexact H4

/-- The buffers no window stages are not the output array: the new valuation leaves them as they were. -/
theorem rest_V₂ (c : Dev nD) :
    (Pipeline.unscopedRest spec0 c (fun b => V₂ m c b) : sProp 𝕄) = Pipeline.unscopedRest spec0 c (V m c) := by
  rw [unscopedRest0_eq, unscopedRest0_eq, V₂_ne m c main_arg1 (by decide), V₂_ne m c main_cst (by decide), V₂_ne m c main_v3 (by decide),
    V₂_ne m c main_cst_0 (by decide), V₂_ne m c main_v4 (by decide)]

/-- The unscoped buffers held at a valuation are the four array buffers and the five others. -/
theorem held_split (c : Dev nD) (W : Valuation τ sig (Elt F)) :
    (StableHlo.held (c : Thread nD τ) (Pipeline.ucRefs τ sig) W : sProp 𝕄)
      = iprop(Pipeline.arrBufs spec0 c (fun b => W b) ∗ Pipeline.unscopedRest spec0 c (fun b => W b)) := by
  rw [← Pipeline.unscopedBufs_held, Pipeline.unscopedBufs_split₀ cfgs 0 winFacts₀0.arr_unscoped]

/-! ## The segments of @main -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The staging cells' rounds algebra is the whole of the proof's user component. -/
abbrev EP : Emb (UR sig nD τ) (MT nD τ sig Unit (Elt F) ℕ (UR sig nD τ) ℕ) := emb₁

/-- What rides beside the buffers through the host operations: the core owing nothing. -/
abbrev R (c : Dev nD) : sProp 𝕄 := iprop(∃ W, owes (c : Thread nD τ) (0 : CellTallies nD τ sig Unit) W)

/-- The two reshapes of the label vector, over the unscoped buffers at the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The sum of the output array and its division by the row count, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₂ m) R

set_option backward.isDefEq.respectTransparency.types false in
/-- The region: entered from what the reshapes left — the four array buffers into the pipeline, the feature array's
    share halved between its two windows, the five other buffers bypassing —, left with the output array at its final
    contents and every other buffer as it was. Nothing but the two scratch columns enters the invariant. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(emp)
  Y c := iprop(emp)
  Z c := Pipeline.unscopedRest spec0 c (V m c)
  hentry c := by
    rw [held_split, Pipeline.ownSems0_none]
    iintro ⟨⟨⟨Ha, Hz⟩, HO⟩, -, -⟩
    ihave Ha' := (arrays_in m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    iintro ⟨-, -, Hr⟩
    iapply (Frm.hin m c); iexact Hr
  hout c := by
    rw [Pipeline.ownSems0_none]
    iintro H
    ihave Hr := (Frm.hout m c) $$ H
    isplitr; · iempintro
    isplitr; · iempintro
    iexact Hr
  hexit c := by
    rw [held_split, rest_V₂]
    iintro ⟨Ha, HO, -, HZ⟩
    ihave Ha' := (arrays_out m c) $$ Ha
    imodintro
    isplitr [HO]
    · isplitl [Ha']; · iexact Ha'
      iexact HZ
    · unfold Pipeline.Dat.owesAt Pipeline.owesWithin
      icases HO with ⟨%W, -, HO⟩; iexists W; iexact HO

/-! ## What the buffers hold at the end -/

/-- The result: the four operations after the region applied to the output array's final contents. -/
theorem end_v4 (c : Dev nD) :
    StableHlo.after hostOps1 (V₂ m c) (Proc.devRef .tc main_v4) = tailOf ((dats m 0 c).arrAt 4 cfg0.N) := by
  show StableHlo.after hostOps1 _ (Proc.devRef .tc main_v4) = _
  after_results
  rw [V₂_v2]
  rfl

/-- No operation writes the feature array: -/
theorem end_arg0 (c : Dev nD) :
    StableHlo.after hostOps1 (V₂ m c) (Proc.devRef .tc main_arg0) = m ((c : Thread nD τ).loc main_arg0) := by
  show StableHlo.after hostOps1 _ (Proc.devRef .tc main_arg0) = _
  after_results
  rw [V₂_ne m c main_arg0 (by decide)]
  show StableHlo.after hostOps0 _ (Proc.devRef .tc main_arg0) = _
  after_results

/-- nor the label vector. -/
theorem end_arg1 (c : Dev nD) :
    StableHlo.after hostOps1 (V₂ m c) (Proc.devRef .tc main_arg1) = m ((c : Thread nD τ).loc main_arg1) := by
  show StableHlo.after hostOps1 _ (Proc.devRef .tc main_arg1) = _
  after_results
  rw [V₂_ne m c main_arg1 (by decide)]
  show StableHlo.after hostOps0 _ (Proc.devRef .tc main_arg1) = _
  after_results

/-! ## The run -/

/-- The launch element: the rounds algebra's initial element over the staging cells of the one pipeline and its launch tokens. -/
def u₀ : UR sig nD τ := initOf (Pipeline.cells cfgs cellOf_inj) (Pipeline.launchToks cfgs cellOf_inj)

/-- @main as the list of its three segments. -/
abbrev segs : List (Pipeline.Seg (pcfgs (F := F)) adm (dats m) () defs₀ 𝒱₀ L lv) := [.host (seg0 m), .region (reg0 m), .host (seg1 m)]

set_option backward.isDefEq.respectTransparency.types false in
/-- From any memory with zero counters, every weakly fair execution of @main on the TensorCores terminates, and every
    final state has the result buffer at the sum of the output array's final contents divided by the row count, and
    both arguments as they were. -/
theorem run_main (ρ : Dev nD → PrngReg) : θ_run defs (onTc (τ := τ) (main (F := F))) ⟨m, fun _ => 0, ρ⟩ (fun r => ∀ c : Dev nD,
    r.2.mem ((c.tc : Thread nD τ).loc main_v4) = tailOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (V₂ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v4) = tailOf ((dats m 0 c).arrAt 4 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      rw [held_split, arrBufs_eq, unscopedRest0_eq]
      iintro ⟨⟨⟨Ha0, -⟩, Ha1, -, -, -, Hv4⟩, HSI⟩
      icombine HSI Hv4 gives %h4
      icombine HSI Ha0 gives %h0
      icombine HSI Ha1 gives %h1
      imodintro
      isplitr
      · ipureintro
        exact ⟨(Buf.eq_of_forall_mem_univ h4).trans (end_v4 m c), (Buf.eq_of_forall_mem_univ h0).trans (end_arg0 m c),
          (Buf.eq_of_forall_mem_univ h1).trans (end_arg1 m c)⟩
      iexact HSI)
    (hQ := fun _ h => h)

end Cert.KernelIdeal.Frm

end
-- ==== Proof.FrameBits.Setup.lean ====
/-
  What the three runs of the kernel body and the proof data share.

  The grid is 16 × 16, the second coordinate fastest: point `t` is row block `t / 16` against column block `t % 16`.
  The body resets its two scratch columns (the running largest positive and smallest negative distance of the row
  block) where the column block is the first, and writes the row block's slack into the output window where it is the
  last: the two conditions in closed form over the grid, where the output window is idle, the memrefs the pipeline
  calls the body with, the region-entry contents of the arrays and each window's block read off them.
-/
import proofs.«173925_j63556926046454_1_alg».proof.Proof.Gen.Kernel.Launch
import proofs.«173925_j63556926046454_1_alg».proof.Proof.Gen.Kernel.Skeleton
import proofs.«173925_j63556926046454_1_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two conditions of the body, over the grid -/

/-- The column block is the first one (the body's first `scf.if`, its scalar chain written out). -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)
/-- The column block is the last one (the body's second `scf.if`). -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-- The output window is idle away from the last column block, where the pipeline does not write it back either, -/
theorem idle_out : ∀ t : Fin cfg0.N, ¬condLast (grid0.coords t) → cfg0.idle 4 (grid0.coords t) = true := by decide +kernel
theorem noFlush_out : ∀ t : Fin cfg0.N, ¬condLast (grid0.coords t) → (cfg0.win 4).flush t = false := by decide +kernel
/-- and live at it. -/
theorem live_out : ∀ t : Fin cfg0.N, condLast (grid0.coords t) → cfg0.idle 4 (grid0.coords t) = false := by decide +kernel

/-! ## Whole-block accesses -/

theorem hz2 : (![0, 0] : Fin 2 → Nat) = fun _ => 0 := by funext a; fin_cases a <;> rfl

/-- A whole-block store, made last, is what a 512 × 1 buffer reads back, whatever was stored before. -/
theorem read_writes_col {sp : Space} (v : View sig .tc sp S512x1 .f32) (f : v.ty.Contents (Elt F))
    (w : S512x1.Idx → Elt F .f32) (L : List (View.Piece (Elt F) S512x1 .f32)) :
    v.read (Elt F) (v.writes (Elt F) f ((⟨Rect.unit (s := S512x1) ![0, 0] S512x1.size inb_S512x1_S512x1_0_0, w⟩ : View.Piece (Elt F) S512x1 .f32) :: L)) = w := by
  rw [View.read_writes_eq_canon _ _ _ (fun y => ⟨_, List.mem_cons_self, by
    show y ∈ (Rect.unit (s := S512x1) ![0, 0] S512x1.size inb_S512x1_S512x1_0_0).set
    rw [show (Rect.unit (s := S512x1) ![0, 0] S512x1.size inb_S512x1_S512x1_0_0) = Rect.whole S512x1 from by
      congr 1; exact hz2]
    rw [Rect.set_whole]; exact Finset.mem_univ y⟩), View.canon_cons_unit_zero hz2]

/-! ## The memrefs the pipeline calls the body with -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The two scratch columns: the running largest positive distance, the running smallest negative distance. -/
abbrev scMax : Memref sig .tc .vmem S512x1 .f32 := Memref.whole cc0_scratch0
abbrev scMin : Memref sig .tc .vmem S512x1 .f32 := Memref.whole cc0_scratch1

/-- The scoped buffers no window stages are the two scratch columns, each owned whole at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scMin fullShare d)) := by
  rw [scopedRest0_eq]; simp only [scMax, scMin, owns_whole]; try rfl

/-! ## The arrays as the region finds them -/

/-- Core `c`'s buffers at launch, as a valuation; -/
abbrev V₀ (c : Dev nD) : Valuation τ sig (Elt F) := fun b => m ((c : Dev nD), b)
/-- after the two reshapes of the label vector that precede the region; -/
abbrev V₁ (c : Dev nD) : Valuation τ sig (Elt F) := StableHlo.after hostOps0 (V₀ m c)
/-- read at a TensorCore reference. -/
abbrev V (c : Dev nD) (b : Ref sig .tc) : Buf (Elt F) ((c : Thread nD τ).loc b) := V₁ m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (unfetched, the
    block index has not moved since the point that fetched it), for any proof data whose array is the region-entry
    contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Frm

end
-- ==== Proof.FrameBits.RunFirst.lean ====
/-
  The kernel body at a point of the FIRST column block: the two scratch columns are reset (to −∞ and +∞) before the
  tile's largest positive and smallest negative distances are folded in, so whatever they held is forgotten; nothing
  is stored into the output window. The run hands back every input buffer as found, the output buffer as found, and
  the scratch columns at the tile's maxima joined with −∞ and its minima joined with +∞.
-/
import proofs.«173925_j63556926046454_1_alg».proof.Proof.FrameBits.Setup

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple at such a point, on any whole memrefs. -/
theorem runFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : condFirst i) (hc1 : ¬condLast i)
    (x0 x1 : Vec F S512x128 .f32) (x2 : Vec F S512x1 .i32) (x3 : Vec F S1x512 .i32) (xo : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xo
            ∗ owns (c : Thread nD τ) arg7 fullShare (k0_pay1 (k0_pay8 x0 x1 x2 x3) (k0_pay4 (F := F)))
            ∗ owns (c : Thread nD τ) arg8 fullShare (k0_pay2 (k0_pay9 x0 x1 x2 x3) (k0_pay5 (F := F)))) -∗ K ⟨⟩))
      ⊢ wp frame (wpE (defs₀ (F := F)) Variants.none c none) E
          (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%fo, %hfo, HO⟩, ⟨%xm, %fm, %hfm, HM⟩, ⟨%xl, %fl, %hfl, HL⟩, Hk⟩
  obtain rfl := harg2.eq_unread hf0; obtain rfl := harg3.eq_unread hf1
  obtain rfl := harg4.eq_unread hf2; obtain rfl := harg5.eq_unread hf3
  obtain rfl := harg6.eq_unread hfo; obtain rfl := harg7.eq_unread hfm; obtain rfl := harg8.eq_unread hfl
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  isplitl [HM]
  · iexists _; isplitr; swap; · iexact HM
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  · iexists _; isplitr; swap; · iexact HL
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]

end Cert.Kernel.Frm

end
-- ==== Proof.FrameBits.RunMid.lean ====
/-
  The kernel body at a point of a MIDDLE column block: the tile's largest positive and smallest negative distances are
  folded into the two scratch columns over what the point before left there; nothing is stored into the output window.
-/
import proofs.«173925_j63556926046454_1_alg».proof.Proof.FrameBits.Setup

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple at such a point, on any whole memrefs. -/
theorem runMid (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condFirst i) (hc1 : ¬condLast i)
    (x0 x1 : Vec F S512x128 .f32) (x2 : Vec F S512x1 .i32) (x3 : Vec F S1x512 .i32) (xo : Vec F S512x1 .f32) (xm xl : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ owns (c : Thread nD τ) arg7 fullShare xm ∗ owns (c : Thread nD τ) arg8 fullShare xl
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xo
            ∗ owns (c : Thread nD τ) arg7 fullShare (k0_pay1 (k0_pay8 x0 x1 x2 x3) xm)
            ∗ owns (c : Thread nD τ) arg8 fullShare (k0_pay2 (k0_pay9 x0 x1 x2 x3) xl)) -∗ K ⟨⟩))
      ⊢ wp frame (wpE (defs₀ (F := F)) Variants.none c none) E
          (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%fo, %hfo, HO⟩, ⟨%fm, %hfm, HM⟩, ⟨%fl, %hfl, HL⟩, Hk⟩
  obtain rfl := harg2.eq_unread hf0; obtain rfl := harg3.eq_unread hf1
  obtain rfl := harg4.eq_unread hf2; obtain rfl := harg5.eq_unread hf3
  obtain rfl := harg6.eq_unread hfo; obtain rfl := harg7.eq_unread hfm; obtain rfl := harg8.eq_unread hfl
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]; · iexists _; isplitr; · ipureintro; exact hfo
                  iexact HO
  isplitl [HM]
  · iexists _; isplitr; swap; · iexact HM
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  · iexists _; isplitr; swap; · iexact HL
    ipureintro
    rw [read_writes_col]
    sl_unfold_words
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]

end Cert.Kernel.Frm

end
-- ==== Proof.FrameBits.RunLast.lean ====
/-
  The kernel body at a point of the LAST column block: the tile's largest positive and smallest negative distances are
  folded into the scratch columns, which the body then reads back to store the row block's slack,
  max (largest positive − smallest negative + 1) 0, into the output window, whatever that buffer held.
-/
import proofs.«173925_j63556926046454_1_alg».proof.Proof.FrameBits.Setup

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple at such a point, on any whole memrefs. -/
theorem runLast (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condFirst i) (hc1 : condLast i)
    (x0 x1 : Vec F S512x128 .f32) (x2 : Vec F S512x1 .i32) (x3 : Vec F S1x512 .i32) (xm xl : Vec F S512x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare xm ∗ owns (c : Thread nD τ) arg8 fullShare xl
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k0_pay3 (k0_pay1 (k0_pay8 x0 x1 x2 x3) xm) (k0_pay2 (k0_pay9 x0 x1 x2 x3) xl))
            ∗ owns (c : Thread nD τ) arg7 fullShare (k0_pay1 (k0_pay8 x0 x1 x2 x3) xm)
            ∗ owns (c : Thread nD τ) arg8 fullShare (k0_pay2 (k0_pay9 x0 x1 x2 x3) xl)) -∗ K ⟨⟩))
      ⊢ wp frame (wpE (defs₀ (F := F)) Variants.none c none) E
          (cc0__triplet_kernel i arg2 harg2 arg3 harg3 arg4 harg4 arg5 harg5 arg6 harg6 arg7 harg7 arg8 harg8) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%xo, %fo, %hfo, HO⟩, ⟨%fm, %hfm, HM⟩, ⟨%fl, %hfl, HL⟩, Hk⟩
  obtain rfl := harg2.eq_unread hf0; obtain rfl := harg3.eq_unread hf1
  obtain rfl := harg4.eq_unread hf2; obtain rfl := harg5.eq_unread hf3
  obtain rfl := harg6.eq_unread hfo; obtain rfl := harg7.eq_unread hfm; obtain rfl := harg8.eq_unread hfl
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [HO]
  · iexists _; isplitr; swap; · iexact HO
    ipureintro
    sl_unfold_words
    rw [read_writes_col]
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  isplitl [HM]
  · iexists _; isplitr; swap; · iexact HM
    ipureintro
    sl_unfold_words
    rw [read_writes_col]
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]
  · iexists _; isplitr; swap; · iexact HL
    ipureintro
    sl_unfold_words
    rw [read_writes_col]
    simp only [View.readAt_eq_ld, harg2.read_unread, harg3.read_unread, harg4.read_unread, harg5.read_unread, harg6.read_unread, harg7.read_unread, harg8.read_unread,
      View.ld_unit_zero (S := S512x128) hz2, View.ld_unit_zero (S := S512x1) hz2, View.ld_unit_zero (S := S1x512) hz2,
      View.readCov_unit_zero (S := S512x1) _ hz2]

end Cert.Kernel.Frm

end
-- ==== Proof.FrameBits.Data.lean ====
/-
  The proof data of the one pipeline and its body obligation.

  After the body at point `t` the two scratch columns hold the tile's largest positive and smallest negative distances
  joined with what the point before left, or with −∞ / +∞ where the column block is the first (`carried`); at a point
  of the last column block the output window's buffer holds the slack computed from them (`outAt`); every input
  window's buffer holds its block. Between points the invariant is the two scratch columns at `carried` (before the
  first point: at anything). The feature array reaches the body through two windows, each at half of its share.
-/
import proofs.«173925_j63556926046454_1_alg».proof.Proof.FrameBits.RunFirst
import proofs.«173925_j63556926046454_1_alg».proof.Proof.FrameBits.RunMid
import proofs.«173925_j63556926046454_1_alg».proof.Proof.FrameBits.RunLast

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the buffers hold, point by point -/

/-- The largest positive and the smallest negative distance of the tile at point `t`, row by row: the body's two
    reductions of the point's four input blocks. -/
abbrev tileMax (c : Dev nD) (t : Fin cfg0.N) : Vec F S512x1 .f32 := k0_pay8 (iblk m c 0 t) (iblk m c 1 t) (iblk m c 2 t) (iblk m c 3 t)
abbrev tileMin (c : Dev nD) (t : Fin cfg0.N) : Vec F S512x1 .f32 := k0_pay9 (iblk m c 0 t) (iblk m c 1 t) (iblk m c 2 t) (iblk m c 3 t)

/-- The two scratch columns after the body at position `n`: the tile's reductions folded into −∞ / +∞ at the first
    column block of a row block, into what the position before left otherwise. -/
def carried (c : Dev nD) : (n : ℕ) → n < cfg0.N → Vec F S512x1 .f32 × Vec F S512x1 .f32
  | 0, hn => (k0_pay1 (tileMax m c ⟨0, hn⟩) (k0_pay4 (F := F)), k0_pay2 (tileMin m c ⟨0, hn⟩) (k0_pay5 (F := F)))
  | n + 1, hn =>
    if (n + 1) % 16 = 0 then
      (k0_pay1 (tileMax m c ⟨n + 1, hn⟩) (k0_pay4 (F := F)), k0_pay2 (tileMin m c ⟨n + 1, hn⟩) (k0_pay5 (F := F)))
    else
      (k0_pay1 (tileMax m c ⟨n + 1, hn⟩) (carried c n (Nat.lt_of_succ_lt hn)).1, k0_pay2 (tileMin m c ⟨n + 1, hn⟩) (carried c n (Nat.lt_of_succ_lt hn)).2)

theorem carried_first (c : Dev nD) (t : Fin cfg0.N) (h0 : t.val % 16 = 0) :
    carried m c t.val t.isLt = (k0_pay1 (tileMax m c t) (k0_pay4 (F := F)), k0_pay2 (tileMin m c t) (k0_pay5 (F := F))) := by
  obtain ⟨n, hn⟩ := t
  cases n with
  | zero => rfl
  | succ n => exact (if_pos h0).trans rfl

theorem carried_next (c : Dev nD) (t : Fin cfg0.N) (h0 : ¬t.val % 16 = 0) :
    carried m c t.val t.isLt = (k0_pay1 (tileMax m c t) (carried m c (t.val - 1) (Nat.lt_of_le_of_lt (Nat.sub_le _ _) t.isLt)).1,
      k0_pay2 (tileMin m c t) (carried m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The slack column the body stores at a point of the last column block, from the scratch columns it has just updated. -/
def outAt (c : Dev nD) (t : Fin cfg0.N) : Vec F S512x1 .f32 := k0_pay3 (carried m c t.val t.isLt).1 (carried m c t.val t.isLt).2

/-- The invariant before position `n`: the scratch columns at anything before the first point, then at what the position
    before left. -/
def PhiS (c : Dev nD) : (n : ℕ) → n ≤ cfg0.N → sProp 𝕄
  | 0, _ => Pipeline.scopedRest spec0 c
  | n + 1, hn => iprop(owns (c : Thread nD τ) scMax fullShare (carried m c n hn).1 ∗ owns (c : Thread nD τ) scMin fullShare (carried m c n hn).2)

theorem PhiS_succ (c : Dev nD) (n : ℕ) (hn : n < cfg0.N) :
    PhiS m c (n + 1) hn = iprop(owns (c : Thread nD τ) scMax fullShare (carried m c n hn).1 ∗ owns (c : Thread nD τ) scMin fullShare (carried m c n hn).2) := rfl

theorem PhiS_pos (c : Dev nD) (n : ℕ) (h : n ≤ cfg0.N) (hz : n ≠ 0) :
    PhiS m c n h = iprop(owns (c : Thread nD τ) scMax fullShare (carried m c (n - 1) (by omega)).1 ∗ owns (c : Thread nD τ) scMin fullShare (carried m c (n - 1) (by omega)).2) := by
  cases n with
  | zero => exact absurd rfl hz
  | succ n => rfl

/-- At any position the invariant yields the two scratch columns at some contents. -/
theorem PhiS_forget (c : Dev nD) (n : ℕ) (h : n ≤ cfg0.N) :
    PhiS m c n h ⊢ iprop((∃ d, owns (c : Thread nD τ) scMax fullShare d) ∗ (∃ d, owns (c : Thread nD τ) scMin fullShare d)) := by
  cases n with
  | zero => exact Entails.of_eq (scopedRest_scratch c)
  | succ n =>
    rw [PhiS_succ]
    iintro ⟨HM, HL⟩
    isplitl [HM]; · iexists _; iexact HM
    iexists _; iexact HL

/-! ## The proof data -/

/-- The arrays as the region finds them; after the body each input's buffer at its block and the output's at the slack
    column; the invariant `PhiS`; nothing owed; the feature array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d

/-- An input window's buffer is handed back at its block (an input is never idle). -/
theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the column block decides which of the three runs applies; the invariant hands the run the
    scratch columns and takes them back at this point's contents; the output window's buffer comes back untouched
    except at the last column block, where it holds the slack column. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  have hN : t.val < 256 := lt_of_lt_of_eq t.isLt (show cfg0.N = 256 from N_0)
  by_cases h0 : t.val % 16 = 0
  · have hl : ¬t.val % 16 = 15 := by omega
    rw [Dat.leavesExact_idle (dats m 0 c) 4 t (idle_out t (fun h => hl ((condLast_iff t).mp h))) (noFlush_out t (fun h => hl ((condLast_iff t).mp h)))]
    rw [carried_first m c t h0]
    iintro ⟨HS, Ho, ⟨%d0, H0⟩, ⟨%d1, H1⟩, ⟨%d2, H2⟩, ⟨%d3, H3⟩, ⟨%d4, H4⟩⟩
    ihave HS' := (PhiS_forget m c _ _) $$ HS
    icases HS' with ⟨HM, HL⟩
    iapply (runFirst c (grid0.coords t) (ms0 t) (hs0 t) (ms1 t) (hs1 t) (ms2 t) (hs2 t) (ms3 t) (hs3 t) (ms4 t) (hs4 t) scMax (Memref.isWhole_whole _) scMin (Memref.isWhole_whole _)
      ((condFirst_iff t).mpr h0) (fun h => hl ((condLast_iff t).mp h)) (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HM]; · iexact HM
    isplitl [HL]; · iexact HL
    iintro ⟨H0, H1, H2, H3, H4, HM, HL⟩
    isplitl [HM HL]
    · isplitl [HM]; · iexact HM
      iexact HL
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos m c _ _ hz, carried_next m c t h0]
    by_cases hl : t.val % 16 = 15
    · rw [show (dats m 0 c).leavesExact 4 t = owns (c : Thread nD τ) (ms4 t) fullShare ((dats m 0 c).after 4 t) from by
        unfold Dat.leavesExact; rw [live_out t ((condLast_iff t).mpr hl)], after4]
      unfold outAt
      rw [carried_next m c t h0]
      iintro ⟨HS, Ho, ⟨%d0, H0⟩, ⟨%d1, H1⟩, ⟨%d2, H2⟩, ⟨%d3, H3⟩, ⟨%d4, H4⟩⟩
      icases HS with ⟨HM, HL⟩
      iapply (runLast c (grid0.coords t) (ms0 t) (hs0 t) (ms1 t) (hs1 t) (ms2 t) (hs2 t) (ms3 t) (hs3 t) (ms4 t) (hs4 t) scMax (Memref.isWhole_whole _) scMin (Memref.isWhole_whole _)
        (fun h => h0 ((condFirst_iff t).mp h)) ((condLast_iff t).mpr hl) (iblk m c 0 t) (iblk m c 1 t) (iblk m c 2 t) (iblk m c 3 t) (carried m c (t.val - 1) (by omega)).1 (carried m c (t.val - 1) (by omega)).2 Set.univ _)
      isplitl [H0]; · iexact H0
      isplitl [H1]; · iexact H1
      isplitl [H2]; · iexact H2
      isplitl [H3]; · iexact H3
      isplitl [H4]; · iexists _; iexact H4
      isplitl [HM]; · iexact HM
      isplitl [HL]; · iexact HL
      iintro ⟨H0, H1, H2, H3, H4, HM, HL⟩
      isplitl [HM HL]
      · isplitl [HM]; · iexact HM
        iexact HL
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle_out t (fun h => hl ((condLast_iff t).mp h))) (noFlush_out t (fun h => hl ((condLast_iff t).mp h)))]
      iintro ⟨HS, Ho, ⟨%d0, H0⟩, ⟨%d1, H1⟩, ⟨%d2, H2⟩, ⟨%d3, H3⟩, ⟨%d4, H4⟩⟩
      icases HS with ⟨HM, HL⟩
      iapply (runMid c (grid0.coords t) (ms0 t) (hs0 t) (ms1 t) (hs1 t) (ms2 t) (hs2 t) (ms3 t) (hs3 t) (ms4 t) (hs4 t) scMax (Memref.isWhole_whole _) scMin (Memref.isWhole_whole _)
        (fun h => h0 ((condFirst_iff t).mp h)) (fun h => hl ((condLast_iff t).mp h)) (iblk m c 0 t) (iblk m c 1 t) (iblk m c 2 t) (iblk m c 3 t) ((dats m 0 c).before 4 t d4) (carried m c (t.val - 1) (by omega)).1 (carried m c (t.val - 1) (by omega)).2 Set.univ _)
      isplitl [H0]; · iexact H0
      isplitl [H1]; · iexact H1
      isplitl [H2]; · iexact H2
      isplitl [H3]; · iexact H3
      isplitl [H4]; · iexact H4
      isplitl [HM]; · iexact HM
      isplitl [HL]; · iexact HL
      iintro ⟨H0, H1, H2, H3, H4, HM, HL⟩
      isplitl [HM HL]
      · isplitl [HM]; · iexact HM
        iexact HL
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the two scratch columns at anything — is the invariant before the first point, -/
theorem hin (c : Dev nD) : Pipeline.scopedRest spec0 c ⊢ (dats m 0 c).Φ 0 := by
  rw [show (dats m 0 c).Φ 0 = PhiS m c 0 (Nat.zero_le _) from rfl]
  exact Entails.of_eq rfl

/-- and after the last point the invariant gives them back. -/
theorem hout (c : Dev nD) : (dats m 0 c).Φ (Fin.last cfg0.N) ⊢ Pipeline.scopedRest spec0 c := by
  rw [show (dats m 0 c).Φ (Fin.last cfg0.N) = PhiS m c (Fin.last cfg0.N).val (Nat.le_of_lt_succ (Fin.last cfg0.N).isLt) from rfl, scopedRest_scratch]
  exact PhiS_forget m c _ _

end Cert.Kernel.Frm

end
-- ==== Proof.FrameBits.Tail.lean ====
/-
  What the four host operations after the region compute from the output array: the sum of the 8192 slacks (a float sum
  from the word for zero) divided by the word for 8192.
-/
import proofs.«173925_j63556926046454_1_alg».proof.Proof.Gen.Kernel

noncomputable section

namespace Cert.Kernel.Frm

open Cert.Kernel Cert.Kernel.Gen Idealize.ShloMosaic

variable {F : FTy → Type} [FloatOps F]

/-- The result buffer as a function of the region's output array. -/
def tailOf (Y : (⟨S8192x1, .f32⟩ : BufTy).Contents (Elt F)) : (⟨S_, .f32⟩ : BufTy).Contents (Elt F) :=
  Host.divf (Host.reduceAdd Y (constant S_ .f32 0x00000000#32) Facts₀.reducesTo_S8192x1_S_d0_1 Facts₀.h_S_) (constant S_ .f32 0x46000000#32)

end Cert.Kernel.Frm

end
-- ==== Proof.FrameBits.Launch.lean ====
/-
  The launch: from the proof data of the one pipeline and its body obligation to the run of @main.

  @main is three segments: the two reshapes of the label vector into a column and a row; the kernel region over the
  16 × 16 grid, with five windows — the feature array twice (row blocks and column blocks), the label column, the label
  row, and the output column of slacks —; then the sum of the output column and its division by the row count. Between
  segments a core holds its nine unscoped buffers whole at a valuation and owes nothing. The feature array stands behind
  two windows, so its full share is dealt to them half and half at the region's entry; an input window's array is never
  written, so the halves come back at the same contents and join at the exit. The output array comes back at what the
  write-backs made of it; every other buffer is untouched by the region. At the end the result buffer holds the four
  closing operations applied to the output array's final contents, and both arguments hold what they held at launch.
-/
import proofs.«173925_j63556926046454_1_alg».proof.Proof.FrameBits.Data
import proofs.«173925_j63556926046454_1_alg».proof.Proof.FrameBits.Tail
import Idealize.ShloMosaic.Lib.Pipeline.Regions
import Idealize.ShloMosaic.Lib.Pipeline.Kit
import Idealize.ShloMosaic.Lib.Pipeline.Frame
import Idealize.ShloMosaic.Lib.StableHlo.Run
import Idealize.ShloMosaic.Rules.PointsTo

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The shares of the five windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The distinct buffers behind the five windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  rw [bigSep_eq_bigSepL_of_eq [main_arg0, main_v0, main_v1, main_v2] (by decide) (by decide)]
  rfl

/-- The pipeline's arrays, window by window: the feature array twice, at the two halves of its share. -/
theorem arrays_eq5 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2) ↦{fullShare} Fa 4)) := by
  unfold Dat.arrays
  rw [bigSep_W0]
  rw [share0, share1, share2, share3, share4]
  rw [show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ]

/-- The full share of the feature array is dealt to its two windows half and half. -/
theorem halves (c : Dev nD) (f : Buf (Elt F) ((c : Thread nD τ).loc main_arg0)) :
    ((((c : Thread nD τ).loc main_arg0) ↦{fullShare} f : sProp 𝕄))
      ⊣⊢ iprop((((c : Thread nD τ).loc main_arg0) ↦{fullShare.left} f) ∗ (((c : Thread nD τ).loc main_arg0) ↦{fullShare.right} f)) :=
  pointsTo_share (PosShare.mem_left_op_right fullShare)

/-- At the region's entry the four array buffers, as the host operations left them, are the pipeline's arrays at the
    proof data's entry contents. -/
theorem arrays_in (c : Dev nD) :
    (Pipeline.arrBufs spec0 c (V m c) : sProp 𝕄) ⊢ (dats m 0 c).arrays ((dats m 0 c).arrAt · 0) := by
  rw [arrBufs_eq, arrays_eq5]
  iintro ⟨H0, H2, H3, H4⟩
  ihave H := (halves c _).1 $$ H0
  icases H with ⟨Hl, Hr⟩
  isplitl [Hl]; · iexact Hl
  isplitl [Hr]; · iexact Hr
  isplitl [H2]; · iexact H2
  isplitl [H3]; · iexact H3
  iexact H4

/-- The buffers when the region is left: the output array at what the write-backs made of it, the rest untouched. -/
abbrev V₂ (c : Dev nD) : Valuation τ sig (Elt F) :=
  Function.update (V₁ m c) (Proc.devRef .tc main_v2) ((dats m 0 c).arrAt 4 cfg0.N)

theorem V₂_v2 (c : Dev nD) : V₂ m c (Proc.devRef .tc main_v2) = (dats m 0 c).arrAt 4 cfg0.N := Function.update_self ..
theorem V₂_ne (c : Dev nD) (b : Ref sig .tc) (h : b ≠ main_v2) : V₂ m c (Proc.devRef .tc b) = V₁ m c (Proc.devRef .tc b) :=
  Function.update_of_ne (StableHlo.devRef_ne_of_ne h) ..

/-- At the region's exit the pipeline's arrays at their final contents are the four array buffers at the new
    valuation: an input window's array is never written, so the feature array's two halves come back at one contents
    and join. -/
theorem arrays_out (c : Dev nD) :
    ((dats m 0 c).arrays ((dats m 0 c).arrAt · cfg0.N) : sProp 𝕄) ⊢ Pipeline.arrBufs spec0 c (fun b => V₂ m c b) := by
  rw [arrBufs_eq, arrays_eq5]
  rw [(dats m 0 c).arrAt_in 0 rfl cfg0.N, (dats m 0 c).arrAt_in 1 rfl cfg0.N, (dats m 0 c).arrAt_in 2 rfl cfg0.N,
    (dats m 0 c).arrAt_in 3 rfl cfg0.N]
  rw [V₂_v2, V₂_ne m c main_arg0 (by decide), V₂_ne m c main_v0 (by decide), V₂_ne m c main_v1 (by decide)]
  iintro ⟨Hl, Hr, H2, H3, H4⟩
  isplitl [Hl Hr]
  · iapply (halves c _).2
    isplitl [Hl]; · iexact Hl
    iexact Hr
  isplitl [H2]; · iexact H2
  isplitl [H3]; · iexact H3
  iexact H4

/-- The buffers no window stages are not the output array: the new valuation leaves them as they were. -/
theorem rest_V₂ (c : Dev nD) :
    (Pipeline.unscopedRest spec0 c (fun b => V₂ m c b) : sProp 𝕄) = Pipeline.unscopedRest spec0 c (V m c) := by
  rw [unscopedRest0_eq, unscopedRest0_eq, V₂_ne m c main_arg1 (by decide), V₂_ne m c main_cst (by decide), V₂_ne m c main_v3 (by decide),
    V₂_ne m c main_cst_0 (by decide), V₂_ne m c main_v4 (by decide)]

/-- The unscoped buffers held at a valuation are the four array buffers and the five others. -/
theorem held_split (c : Dev nD) (W : Valuation τ sig (Elt F)) :
    (StableHlo.held (c : Thread nD τ) (Pipeline.ucRefs τ sig) W : sProp 𝕄)
      = iprop(Pipeline.arrBufs spec0 c (fun b => W b) ∗ Pipeline.unscopedRest spec0 c (fun b => W b)) := by
  rw [← Pipeline.unscopedBufs_held, Pipeline.unscopedBufs_split₀ cfgs 0 winFacts₀0.arr_unscoped]

/-! ## The segments of @main -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The staging cells' rounds algebra is the whole of the proof's user component. -/
abbrev EP : Emb (UR sig nD τ) (MT nD τ sig Unit (Elt F) ℕ (UR sig nD τ) ℕ) := emb₁

/-- What rides beside the buffers through the host operations: the core owing nothing. -/
abbrev R (c : Dev nD) : sProp 𝕄 := iprop(∃ W, owes (c : Thread nD τ) (0 : CellTallies nD τ sig Unit) W)

/-- The two reshapes of the label vector, over the unscoped buffers at the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The sum of the output array and its division by the row count, over the unscoped buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₂ m) R

set_option backward.isDefEq.respectTransparency.types false in
/-- The region: entered from what the reshapes left — the four array buffers into the pipeline, the feature array's
    share halved between its two windows, the five other buffers bypassing —, left with the output array at its final
    contents and every other buffer as it was. Nothing but the two scratch columns enters the invariant. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(emp)
  Y c := iprop(emp)
  Z c := Pipeline.unscopedRest spec0 c (V m c)
  hentry c := by
    rw [held_split, Pipeline.ownSems0_none]
    iintro ⟨⟨⟨Ha, Hz⟩, HO⟩, -, -⟩
    ihave Ha' := (arrays_in m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    iintro ⟨-, -, Hr⟩
    iapply (Frm.hin m c); iexact Hr
  hout c := by
    rw [Pipeline.ownSems0_none]
    iintro H
    ihave Hr := (Frm.hout m c) $$ H
    isplitr; · iempintro
    isplitr; · iempintro
    iexact Hr
  hexit c := by
    rw [held_split, rest_V₂]
    iintro ⟨Ha, HO, -, HZ⟩
    ihave Ha' := (arrays_out m c) $$ Ha
    imodintro
    isplitr [HO]
    · isplitl [Ha']; · iexact Ha'
      iexact HZ
    · unfold Pipeline.Dat.owesAt Pipeline.owesWithin
      icases HO with ⟨%W, -, HO⟩; iexists W; iexact HO

/-! ## What the buffers hold at the end -/

/-- The result: the four operations after the region applied to the output array's final contents. -/
theorem end_v4 (c : Dev nD) :
    StableHlo.after hostOps1 (V₂ m c) (Proc.devRef .tc main_v4) = tailOf ((dats m 0 c).arrAt 4 cfg0.N) := by
  show StableHlo.after hostOps1 _ (Proc.devRef .tc main_v4) = _
  after_results
  rw [V₂_v2]
  rfl

/-- No operation writes the feature array: -/
theorem end_arg0 (c : Dev nD) :
    StableHlo.after hostOps1 (V₂ m c) (Proc.devRef .tc main_arg0) = m ((c : Thread nD τ).loc main_arg0) := by
  show StableHlo.after hostOps1 _ (Proc.devRef .tc main_arg0) = _
  after_results
  rw [V₂_ne m c main_arg0 (by decide)]
  show StableHlo.after hostOps0 _ (Proc.devRef .tc main_arg0) = _
  after_results

/-- nor the label vector. -/
theorem end_arg1 (c : Dev nD) :
    StableHlo.after hostOps1 (V₂ m c) (Proc.devRef .tc main_arg1) = m ((c : Thread nD τ).loc main_arg1) := by
  show StableHlo.after hostOps1 _ (Proc.devRef .tc main_arg1) = _
  after_results
  rw [V₂_ne m c main_arg1 (by decide)]
  show StableHlo.after hostOps0 _ (Proc.devRef .tc main_arg1) = _
  after_results

/-! ## The run -/

/-- The launch element: the rounds algebra's initial element over the staging cells of the one pipeline and its launch tokens. -/
def u₀ : UR sig nD τ := initOf (Pipeline.cells cfgs cellOf_inj) (Pipeline.launchToks cfgs cellOf_inj)

/-- @main as the list of its three segments. -/
abbrev segs : List (Pipeline.Seg (pcfgs (F := F)) adm (dats m) () defs₀ 𝒱₀ L lv) := [.host (seg0 m), .region (reg0 m), .host (seg1 m)]

set_option backward.isDefEq.respectTransparency.types false in
/-- From any memory with zero counters, every weakly fair execution of @main on the TensorCores terminates, and every
    final state has the result buffer at the sum of the output array's final contents divided by the row count, and
    both arguments as they were. -/
theorem run_main (ρ : Dev nD → PrngReg) : θ_run defs (onTc (τ := τ) (main (F := F))) ⟨m, fun _ => 0, ρ⟩ (fun r => ∀ c : Dev nD,
    r.2.mem ((c.tc : Thread nD τ).loc main_v4) = tailOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (V₂ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v4) = tailOf ((dats m 0 c).arrAt 4 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      rw [held_split, arrBufs_eq, unscopedRest0_eq]
      iintro ⟨⟨⟨Ha0, -⟩, Ha1, -, -, -, Hv4⟩, HSI⟩
      icombine HSI Hv4 gives %h4
      icombine HSI Ha0 gives %h0
      icombine HSI Ha1 gives %h1
      imodintro
      isplitr
      · ipureintro
        exact ⟨(Buf.eq_of_forall_mem_univ h4).trans (end_v4 m c), (Buf.eq_of_forall_mem_univ h0).trans (end_arg0 m c),
          (Buf.eq_of_forall_mem_univ h1).trans (end_arg1 m c)⟩
      iexact HSI)
    (hQ := fun _ h => h)

end Cert.Kernel.Frm

end
-- ==== Proof.lean ====
/-
  The hard-mining triplet loss: a Pallas kernel against its jnp reference, over the extended reals.

  The kernel walks the 8192 × 8192 matrix of pairwise distances in 512 × 512 tiles and never holds more than one tile:
  a tile's squared distances come from ONE matrix product of augmented rows, [−2·x_i, |x_i|², 1] · [x_j, 1, |x_j|²], and
  for each anchor row a running maximum of the distances to same-label rows and a running minimum of the distances to
  the others are carried from tile to tile in two scratch columns; at a row block's last tile the slack
  max (maximum − minimum + 1) 0 is written out, and the host averages the slacks. The reference forms the whole
  distance matrix by the Gram identity |x_i|² + |x_j|² − 2⟨x_i, x_j⟩, guards the square root at zero, and reduces each row.
  On finite features both are the function `Cert.Triplet.loss` of the arguments: the augmented product is the Gram
  identity (distributing −2 over a sum and subtracting need finiteness, which the precondition gives), the guarded root
  is the root, and a maximum (minimum) over all columns is the maximum (minimum) of the column blocks' maxima (minima).

  The frames of the two kernel programs (they terminate, fault nowhere, leave the arguments unchanged) rest on the
  body's triple at the three kinds of grid point and on the pipeline's proof data, the feature array held by its two
  windows at half a share each; the reference's frame and value are its generated run read stage by stage.
-/
import proofs.«173925_j63556926046454_1_alg».proof.Defs
import proofs.«173925_j63556926046454_1_alg».proof.Proof.Gen.Kernel
import proofs.«173925_j63556926046454_1_alg».proof.Proof.Gen.KernelIdeal
import proofs.«173925_j63556926046454_1_alg».proof.Proof.Gen.ReferenceIdeal
import proofs.«173925_j63556926046454_1_alg».proof.Proof.Gen.Pre_finite_inputs
import proofs.«173925_j63556926046454_1_alg».proof.Proof.Gen.ReferenceIdeal.Run
import proofs.«173925_j63556926046454_1_alg».proof.Proof.Gen.ReferenceIdeal.Read
import proofs.«173925_j63556926046454_1_alg».proof.Proof.Spec
import proofs.«173925_j63556926046454_1_alg».proof.Proof.RefValue
import proofs.«173925_j63556926046454_1_alg».proof.Proof.Finite
import proofs.«173925_j63556926046454_1_alg».proof.Proof.GridValue
import proofs.«173925_j63556926046454_1_alg».proof.Proof.FrameIdeal.Launch
import proofs.«173925_j63556926046454_1_alg».proof.Proof.FrameBits.Launch
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_p : Cert.frame_Kernel := fun m ρ _ =>
  (θ_run Cert.Kernel.defs _ _).mono (fun _ h c => (h c).2) (Cert.Kernel.Frm.run_main (F := Bits) m ρ)

/-- So does the idealized one. -/
theorem frame_pi : Cert.frame_KernelIdeal := fun m ρ _ =>
  (θ_run Cert.KernelIdeal.defs _ _).mono (fun _ h c => (h c).2) (Cert.KernelIdeal.Frm.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite features both programs end with the loss of the arguments in their result buffer. -/
theorem algebraic : Cert.algebraic_KernelIdeal_ReferenceIdeal := by
  intro m ρ m' ρ' hpre hagree
  refine ⟨fun c => fun _ => Cert.Triplet.loss (Cert.KernelIdeal.GridValue.featOf m c) (Cert.KernelIdeal.GridValue.labOf m c), ?_, ?_⟩
  · refine (θ_run Cert.KernelIdeal.defs _ _).mono (fun _ h c => ⟨(h c).1.trans ?_, (h c).2⟩) (Cert.KernelIdeal.Frm.run_main (F := Ideal) m ρ)
    exact Cert.KernelIdeal.GridValue.kernel_value m c (fun i k => Cert.Proof.Finite.finite_of_pre m hpre c i k)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v36_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
